-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x200x8 : Shape := ⟨3, ![128, 200, 8]⟩
abbrev S8x256 : Shape := ⟨2, ![8, 256]⟩
abbrev S256 : Shape := ⟨1, ![256]⟩
abbrev S512x256 : Shape := ⟨2, ![512, 256]⟩
abbrev S256x256 : Shape := ⟨2, ![256, 256]⟩
abbrev S_ : Shape := ⟨0, ![]⟩

class Facts : Prop where
  bcast_S_S128x200x8 : S_.BroadcastsInDim S128x200x8 (![] : Fin 0 → Fin S128x200x8.rank)
  reducesTo_S128x200x8_S_d0_1_2 : S128x200x8.ReducesTo [0, 1, 2] S_
  h_S_ : 0 < S_.numel
  bcast_S_S8x256 : S_.BroadcastsInDim S8x256 (![] : Fin 0 → Fin S8x256.rank)
  reducesTo_S8x256_S_d0_1 : S8x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S256x256 : S_.BroadcastsInDim S256x256 (![] : Fin 0 → Fin S256x256.rank)
  reducesTo_S256x256_S_d0_1 : S256x256.ReducesTo [0, 1] S_

variable [Facts]

def fn_part3 {F : FTy → Type} [FloatOps F] (main_arg11 : FVec F S256x256 .f32) (main_arg12 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  main_v63

def fn_part2 {F : FTy → Type} [FloatOps F] (main_arg7 : FVec F S512x256 .f32) (main_arg8 : FVec F S256 .f32) (main_arg9 : FVec F S256x256 .f32) (main_arg10 : FVec F S256 .f32) (main_arg11 : FVec F S256x256 .f32) (main_arg12 : FVec F S256 .f32) (main_v33 : IVec S_ 1) : IVec S_ 1 :=
  let main_v34 : FVec F S512x256 .f32 := Host.absf main_arg7
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_v48 main_v49 main_v50

def fn_part1 {F : FTy → Type} [FloatOps F] (main_arg4 : FVec F S256 .f32) (main_arg5 : FVec F S512x256 .f32) (main_arg6 : FVec F S256 .f32) (main_arg7 : FVec F S512x256 .f32) (main_arg8 : FVec F S256 .f32) (main_arg9 : FVec F S256x256 .f32) (main_arg10 : FVec F S256 .f32) (main_arg11 : FVec F S256x256 .f32) (main_arg12 : FVec F S256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S128x200x8 .f32) (main_arg1 : FVec F S8x256 .f32) (main_arg2 : FVec F S256 .f32) (main_arg3 : FVec F S512x256 .f32) (main_arg4 : FVec F S256 .f32) (main_arg5 : FVec F S512x256 .f32) (main_arg6 : FVec F S256 .f32) (main_arg7 : FVec F S512x256 .f32) (main_arg8 : FVec F S256 .f32) (main_arg9 : FVec F S256x256 .f32) (main_arg10 : FVec F S256 .f32) (main_arg11 : FVec F S256x256 .f32) (main_arg12 : FVec F S256 .f32) : IVec S_ 1 :=
  let main_v0 : FVec F S128x200x8 .f32 := Host.absf main_arg0
  let main_cst : FVec F S_ .f32 := constant S_ .f32 0x7F800000#32
  let main_v1 : FVec F S128x200x8 .f32 := broadcastInDim S128x200x8 ![] bcast_S_S128x200x8 main_cst
  let main_v2 : IVec S128x200x8 1 := cmpf .olt main_v0 main_v1
  let main_c : IVec S_ 1 := constantI S_ 1 1#1
  let main_v3 : IVec S_ 1 := (fun x v => Host.reduce IntOp.andi x v reducesTo_S128x200x8_S_d0_1_2 h_S_) main_v2 main_c
  let main_v4 : FVec F S8x256 .f32 := Host.absf main_arg1
  let main_cst_0 : FVec F S_ .f32 := constant S_ .f32 0x7F800000#32
  let main_v5 : FVec F S8x256 .f32 := broadcastInDim S8x256 ![] bcast_S_S8x256 main_cst_0
  let main_v6 : IVec S8x256 1 := cmpf .olt main_v4 main_v5
  let main_c_1 : IVec S_ 1 := constantI S_ 1 1#1
  let main_v7 : IVec S_ 1 := (fun x v => Host.reduce IntOp.andi x v reducesTo_S8x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_arg7 main_arg8 main_arg9 main_arg10 main_arg11 main_arg12 main_v13 main_v16
-- ==== Kernel.lean ====
abbrev S128x200x8 : Shape := ⟨3, ![128, 200, 8]⟩
abbrev S8x256 : Shape := ⟨2, ![8, 256]⟩
abbrev S256 : Shape := ⟨1, ![256]⟩
abbrev S512x256 : Shape := ⟨2, ![512, 256]⟩
abbrev S256x256 : Shape := ⟨2, ![256, 256]⟩
abbrev S1x256 : Shape := ⟨2, ![1, 256]⟩
abbrev S128x1x256 : Shape := ⟨3, ![128, 1, 256]⟩
abbrev S128x200x200 : Shape := ⟨3, ![128, 200, 200]⟩
abbrev S1x200x8 : Shape := ⟨3, ![1, 200, 8]⟩
abbrev S1x1x256 : Shape := ⟨3, ![1, 1, 256]⟩
abbrev S1x200x200 : Shape := ⟨3, ![1, 200, 200]⟩
abbrev S200x8 : Shape := ⟨2, ![200, 8]⟩
abbrev S200x256 : Shape := ⟨2, ![200, 256]⟩
abbrev S200x200 : Shape := ⟨2, ![200, 200]⟩
abbrev S200 : Shape := ⟨1, ![200]⟩
abbrev S200x1 : Shape := ⟨2, ![200, 1]⟩
abbrev S128x256 : Shape := ⟨2, ![128, 256]⟩

abbrev nBuf : Space → Nat
  | .hbm => 22
  | .vmem => 18
  | .smem => 0
  | _ => 0

abbrev bufTy : (tb : Table) → Fin (tcTables nBuf tb) → BufTy
  | .hbm, ⟨0, _⟩ => ⟨S128x200x8, .f32⟩
  | .hbm, ⟨1, _⟩ => ⟨S8x256, .f32⟩
  | .hbm, ⟨2, _⟩ => ⟨S256, .f32⟩
  | .hbm, ⟨3, _⟩ => ⟨S512x256, .f32⟩
  | .hbm, ⟨4, _⟩ => ⟨S256, .f32⟩
  | .hbm, ⟨5, _⟩ => ⟨S512x256, .f32⟩
  | .hbm, ⟨6, _⟩ => ⟨S256, .f32⟩
  | .hbm, ⟨7, _⟩ => ⟨S512x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S1x256, .f32⟩
  | .hbm, ⟨14, _⟩ => ⟨S1x256, .f32⟩
  | .hbm, ⟨15, _⟩ => ⟨S1x256, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S128x1x256, .f32⟩
  | .hbm, ⟨20, _⟩ => ⟨S128x200x200, .f32⟩
  | .hbm, ⟨21, _⟩ => ⟨S128x256, .f32⟩
  | .local _ .vmem, ⟨0, _⟩ => ⟨S1x200x8, .f32⟩
  | .local _ .vmem, ⟨1, _⟩ => ⟨S1x200x8, .f32⟩
  | .local _ .vmem, ⟨2, _⟩ => ⟨S8x256, .f32⟩
  | .local _ .vmem, ⟨3, _⟩ => ⟨S1x256, .f32⟩
  | .local _ .vmem, ⟨4, _⟩ => ⟨S512x256, .f32⟩
  | .local _ .vmem, ⟨5, _⟩ => ⟨S1x256, .f32⟩
  | .local _ .vmem, ⟨6, _⟩ => ⟨S512x256, .f32⟩
  | .local _ .vmem, ⟨7, _⟩ => ⟨S1x256, .f32⟩
  | .local _ .vmem, ⟨8, _⟩ => ⟨S512x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S256x256, .f32⟩
  | .local _ .vmem, ⟨13, _⟩ => ⟨S1x256, .f32⟩
  | .local _ .vmem, ⟨14, _⟩ => ⟨S1x1x256, .f32⟩
  | .local _ .vmem, ⟨15, _⟩ => ⟨S1x1x256, .f32⟩
  | .local _ .vmem, ⟨16, _⟩ => ⟨S1x200x200, .f32⟩
  | .local _ .vmem, ⟨17, _⟩ => ⟨S1x200x200, .f32⟩
  | _, _ => ⟨S128x200x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6_0 : Ref sig .tc := ⟨.hbm, 19, rfl⟩
abbrev main_v6_1 : Ref sig .tc := ⟨.hbm, 20, rfl⟩
abbrev main_v7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x200x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x200x200 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  shapeCasts_S256_S1x256 : S256.ShapeCasts S1x256
  inb_S1x200x8_S1x200x8_0_0_0 : ∀ a, (![0, 0, 0] : Fin 3 → Nat) a + S1x200x8.size a ≤ S1x200x8.size a
  h_S1x200x8 : 0 < S1x200x8.numel
  shapeCasts_S1x200x8_S200x8 : S1x200x8.ShapeCasts S200x8
  inb_S8x256_S8x256_0_0 : ∀ a, (![0, 0] : Fin 2 → Nat) a + S8x256.size a ≤ S8x256.size a
  h_S8x256 : 0 < S8x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S200x256 : S1x256.Broadcasts S200x256
  reduces_S200x200_S200 : S200x200.Reduces [1] S200
  shapeCasts_S200_S200x1 : S200.ShapeCasts S200x1
  broadcasts_S200x1_S200x200 : S200x1.Broadcasts S200x200
  inb_S512x256_S512x256_0_0 : ∀ a, (![0, 0] : Fin 2 → Nat) a + S512x256.size a ≤ S512x256.size a
  h_S512x256 : 0 < S512x256.numel
  slices_S512x256_o0_0_S256x256 : S512x256.Slices ![0, 0] S256x256
  slices_S512x256_o256_0_S256x256 : S512x256.Slices ![256, 0] S256x256
  inb_S256x256_S256x256_0_0 : ∀ a, (![0, 0] : Fin 2 → Nat) a + S256x256.size a ≤ S256x256.size a
  h_S256x256 : 0 < S256x256.numel
  reduces_S200x256_S256 : S200x256.Reduces [0] S256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  inb_S1x200x200_S1x200x200_0_0_0 : ∀ a, (![0, 0, 0] : Fin 3 → Nat) a + S1x200x200.size a ≤ S1x200x200.size a
  h_S1x200x200 : 0 < S1x200x200.numel
  shapeCasts_S1x200x200_S200x200 : S1x200x200.ShapeCasts S200x200
  shapeCasts_S200x200_S1x200x200 : S200x200.ShapeCasts S1x200x200
  shapeCasts_S128x1x256_S128x256 : S128x1x256.ShapeCasts S128x256
  dot_S200x8_S8x256_S200x256_1_0_0_1_n_n_wf : DotDims.WF S200x8 S8x256 S200x256 [1] [0] [0] [1] [] []
  dot_S200x256_S200x256_S200x200_1_1_0_0_n_n_wf : DotDims.WF S200x256 S200x256 S200x200 [1] [1] [0] [0] [] []
  dot_S200x200_S200x256_S200x256_1_0_0_1_n_n_wf : DotDims.WF S200x200 S200x256 S200x256 [1] [0] [0] [1] [] []
  dot_S200x256_S256x256_S200x256_1_0_0_1_n_n_wf : DotDims.WF S200x256 S256x256 S200x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x200x8.size a ≤ S128x200x8.size a
  hwx0_0 : ∀ i : grid0.Coords, EltTy.bits .f32 = 32 ∨ (Rect.block (s := S128x200x8) S1x200x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S8x256.size a
  hwx0_1 : ∀ i : grid0.Coords, EltTy.bits .f32 = 32 ∨ (Rect.block (s := S8x256) S8x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .f32 = 32 ∨ (Rect.block (s := S512x256) S512x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S512x256.size a
  hwx0_7 : ∀ i : grid0.Coords, EltTy.bits .f32 = 32 ∨ (Rect.block (s := S512x256) S512x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .f32 = 32 ∨ (Rect.block (s := S256x256) S256x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .f32 = 32 ∨ (Rect.block (s := S256x256) S256x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x1x256.size a ≤ S128x1x256.size a
  hwx0_13 : ∀ i : grid0.Coords, EltTy.bits .f32 = 32 ∨ (Rect.block (s := S128x1x256) S1x1x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x200x200.size a ≤ S128x200x200.size a
  hwx0_14 : ∀ i : grid0.Coords, EltTy.bits .f32 = 32 ∨ (Rect.block (s := S128x200x200) S1x200x200.size (cc0_transform_14 i) (hinb0_14 i)).WholeWords (EltTy.packing .f32)

variable [Facts₀]

def dot_S200x8_S8x256_S200x256_1_0_0_1_n_n : DotDims S200x8 S8x256 S200x256 where
  lhsContracting := [1]
  rhsContracting := [0]
  lhsNonContracting := [0]
  rhsNonContracting := [1]
  lhsBatch := []
  rhsBatch := []
  wf := dot_S200x8_S8x256_S200x256_1_0_0_1_n_n_wf
def dot_S200x256_S200x256_S200x200_1_1_0_0_n_n : DotDims S200x256 S200x256 S200x200 where
  lhsContracting := [1]
  rhsContracting := [1]
  lhsNonContracting := [0]
  rhsNonContracting := [0]
  lhsBatch := []
  rhsBatch := []
  wf := dot_S200x256_S200x256_S200x200_1_1_0_0_n_n_wf
def dot_S200x200_S200x256_S200x256_1_0_0_1_n_n : DotDims S200x200 S200x256 S200x256 where
  lhsContracting := [1]
  rhsContracting := [0]
  lhsNonContracting := [0]
  rhsNonContracting := [1]
  lhsBatch := []
  rhsBatch := []
  wf := dot_S200x200_S200x256_S200x256_1_0_0_1_n_n_wf
def dot_S200x256_S256x256_S200x256_1_0_0_1_n_n : DotDims S200x256 S256x256 S200x256 where
  lhsContracting := [1]
  rhsContracting := [0]
  lhsNonContracting := [0]
  rhsNonContracting := [1]
  lhsBatch := []
  rhsBatch := []
  wf := dot_S200x256_S256x256_S200x256_1_0_0_1_n_n_wf

abbrev win0_0 : Pipeline.Window sig grid0 :=
  Pipeline.Window.ofSpec (Memref.whole main_arg0) S1x200x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v6_0) S1x1x256.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v6_1) S1x200x200.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S128x200x8 : Shape := ⟨3, ![128, 200, 8]⟩
abbrev S8x256 : Shape := ⟨2, ![8, 256]⟩
abbrev S256 : Shape := ⟨1, ![256]⟩
abbrev S512x256 : Shape := ⟨2, ![512, 256]⟩
abbrev S256x256 : Shape := ⟨2, ![256, 256]⟩
abbrev S128x200x256 : Shape := ⟨3, ![128, 200, 256]⟩
abbrev S1x1x256 : Shape := ⟨3, ![1, 1, 256]⟩
abbrev S_ : Shape := ⟨0, ![]⟩
abbrev S128x200x200 : Shape := ⟨3, ![128, 200, 200]⟩
abbrev S128x200 : Shape := ⟨2, ![128, 200]⟩
abbrev S128x200x1 : Shape := ⟨3, ![128, 200, 1]⟩
abbrev S128x200x512 : Shape := ⟨3, ![128, 200, 512]⟩
abbrev S128x256 : Shape := ⟨2, ![128, 256]⟩

abbrev nBuf : Space → Nat
  | .hbm => 106
  | .vmem => 0
  | .smem => 0
  | _ => 0

abbrev bufTy : (tb : Table) → Fin (tcTables nBuf tb) → BufTy
  | .hbm, ⟨0, _⟩ => ⟨S128x200x8, .f32⟩
  | .hbm, ⟨1, _⟩ => ⟨S8x256, .f32⟩
  | .hbm, ⟨2, _⟩ => ⟨S256, .f32⟩
  | .hbm, ⟨3, _⟩ => ⟨S512x256, .f32⟩
  | .hbm, ⟨4, _⟩ => ⟨S256, .f32⟩
  | .hbm, ⟨5, _⟩ => ⟨S512x256, .f32⟩
  | .hbm, ⟨6, _⟩ => ⟨S256, .f32⟩
  | .hbm, ⟨7, _⟩ => ⟨S512x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S128x200x256, .f32⟩
  | .hbm, ⟨14, _⟩ => ⟨S1x1x256, .f32⟩
  | .hbm, ⟨15, _⟩ => ⟨S128x200x256, .f32⟩
  | .hbm, ⟨16, _⟩ => ⟨S128x200x256, .f32⟩
  | .hbm, ⟨17, _⟩ => ⟨S128x200x256, .f32⟩
  | .hbm, ⟨18, _⟩ => ⟨S_, .f32⟩
  | .hbm, ⟨19, _⟩ => ⟨S128x200x200, .f32⟩
  | .hbm, ⟨20, _⟩ => ⟨S128x200x200, .f32⟩
  | .hbm, ⟨21, _⟩ => ⟨S_, .f32⟩
  | .hbm, ⟨22, _⟩ => ⟨S128x200x200, .f32⟩
  | .hbm, ⟨23, _⟩ => ⟨S128x200x200, .f32⟩
  | .hbm, ⟨24, _⟩ => ⟨S_, .f32⟩
  | .hbm, ⟨25, _⟩ => ⟨S128x200, .f32⟩
  | .hbm, ⟨26, _⟩ => ⟨S_, .f32⟩
  | .hbm, ⟨27, _⟩ => ⟨S128x200, .f32⟩
  | .hbm, ⟨28, _⟩ => ⟨S128x200, .f32⟩
  | .hbm, ⟨29, _⟩ => ⟨S128x200x1, .f32⟩
  | .hbm, ⟨30, _⟩ => ⟨S128x200x200, .f32⟩
  | .hbm, ⟨31, _⟩ => ⟨S128x200x200, .f32⟩
  | .hbm, ⟨32, _⟩ => ⟨S128x200x200, .f32⟩
  | .hbm, ⟨33, _⟩ => ⟨S_, .f32⟩
  | .hbm, ⟨34, _⟩ => ⟨S128x200, .f32⟩
  | .hbm, ⟨35, _⟩ => ⟨S128x200x1, .f32⟩
  | .hbm, ⟨36, _⟩ => ⟨S128x200x200, .f32⟩
  | .hbm, ⟨37, _⟩ => ⟨S128x200x200, .f32⟩
  | .hbm, ⟨38, _⟩ => ⟨S128x200x256, .f32⟩
  | .hbm, ⟨39, _⟩ => ⟨S128x200x512, .f32⟩
  | .hbm, ⟨40, _⟩ => ⟨S128x200x256, .f32⟩
  | .hbm, ⟨41, _⟩ => ⟨S1x1x256, .f32⟩
  | .hbm, ⟨42, _⟩ => ⟨S128x200x256, .f32⟩
  | .hbm, ⟨43, _⟩ => ⟨S128x200x256, .f32⟩
  | .hbm, ⟨44, _⟩ => ⟨S128x200x256, .f32⟩
  | .hbm, ⟨45, _⟩ => ⟨S128x200x200, .f32⟩
  | .hbm, ⟨46, _⟩ => ⟨S_, .f32⟩
  | .hbm, ⟨47, _⟩ => ⟨S128x200x200, .f32⟩
  | .hbm, ⟨48, _⟩ => ⟨S128x200x200, .f32⟩
  | .hbm, ⟨49, _⟩ => ⟨S_, .f32⟩
  | .hbm, ⟨50, _⟩ => ⟨S128x200, .f32⟩
  | .hbm, ⟨51, _⟩ => ⟨S_, .f32⟩
  | .hbm, ⟨52, _⟩ => ⟨S128x200, .f32⟩
  | .hbm, ⟨53, _⟩ => ⟨S128x200, .f32⟩
  | .hbm, ⟨54, _⟩ => ⟨S128x200x1, .f32⟩
  | .hbm, ⟨55, _⟩ => ⟨S128x200x200, .f32⟩
  | .hbm, ⟨56, _⟩ => ⟨S128x200x200, .f32⟩
  | .hbm, ⟨57, _⟩ => ⟨S128x200x200, .f32⟩
  | .hbm, ⟨58, _⟩ => ⟨S_, .f32⟩
  | .hbm, ⟨59, _⟩ => ⟨S128x200, .f32⟩
  | .hbm, ⟨60, _⟩ => ⟨S128x200x1, .f32⟩
  | .hbm, ⟨61, _⟩ => ⟨S128x200x200, .f32⟩
  | .hbm, ⟨62, _⟩ => ⟨S128x200x200, .f32⟩
  | .hbm, ⟨63, _⟩ => ⟨S128x200x256, .f32⟩
  | .hbm, ⟨64, _⟩ => ⟨S128x200x512, .f32⟩
  | .hbm, ⟨65, _⟩ => ⟨S128x200x256, .f32⟩
  | .hbm, ⟨66, _⟩ => ⟨S1x1x256, .f32⟩
  | .hbm, ⟨67, _⟩ => ⟨S128x200x256, .f32⟩
  | .hbm, ⟨68, _⟩ => ⟨S128x200x256, .f32⟩
  | .hbm, ⟨69, _⟩ => ⟨S128x200x256, .f32⟩
  | .hbm, ⟨70, _⟩ => ⟨S128x200x200, .f32⟩
  | .hbm, ⟨71, _⟩ => ⟨S_, .f32⟩
  | .hbm, ⟨72, _⟩ => ⟨S128x200x200, .f32⟩
  | .hbm, ⟨73, _⟩ => ⟨S128x200x200, .f32⟩
  | .hbm, ⟨74, _⟩ => ⟨S_, .f32⟩
  | .hbm, ⟨75, _⟩ => ⟨S128x200, .f32⟩
  | .hbm, ⟨76, _⟩ => ⟨S_, .f32⟩
  | .hbm, ⟨77, _⟩ => ⟨S128x200, .f32⟩
  | .hbm, ⟨78, _⟩ => ⟨S128x200, .f32⟩
  | .hbm, ⟨79, _⟩ => ⟨S128x200x1, .f32⟩
  | .hbm, ⟨80, _⟩ => ⟨S128x200x200, .f32⟩
  | .hbm, ⟨81, _⟩ => ⟨S128x200x200, .f32⟩
  | .hbm, ⟨82, _⟩ => ⟨S128x200x200, .f32⟩
  | .hbm, ⟨83, _⟩ => ⟨S_, .f32⟩
  | .hbm, ⟨84, _⟩ => ⟨S128x200, .f32⟩
  | .hbm, ⟨85, _⟩ => ⟨S128x200x1, .f32⟩
  | .hbm, ⟨86, _⟩ => ⟨S128x200x200, .f32⟩
  | .hbm, ⟨87, _⟩ => ⟨S128x200x200, .f32⟩
  | .hbm, ⟨88, _⟩ => ⟨S128x200x256, .f32⟩
  | .hbm, ⟨89, _⟩ => ⟨S128x200x512, .f32⟩
  | .hbm, ⟨90, _⟩ => ⟨S128x200x256, .f32⟩
  | .hbm, ⟨91, _⟩ => ⟨S1x1x256, .f32⟩
  | .hbm, ⟨92, _⟩ => ⟨S128x200x256, .f32⟩
  | .hbm, ⟨93, _⟩ => ⟨S128x200x256, .f32⟩
  | .hbm, ⟨94, _⟩ => ⟨S128x200x256, .f32⟩
  | .hbm, ⟨95, _⟩ => ⟨S128x200x256, .f32⟩
  | .hbm, ⟨96, _⟩ => ⟨S1x1x256, .f32⟩
  | .hbm, ⟨97, _⟩ => ⟨S128x200x256, .f32⟩
  | .hbm, ⟨98, _⟩ => ⟨S128x200x256, .f32⟩
  | .hbm, ⟨99, _⟩ => ⟨S128x200x256, .f32⟩
  | .hbm, ⟨100, _⟩ => ⟨S128x200x256, .f32⟩
  | .hbm, ⟨101, _⟩ => ⟨S1x1x256, .f32⟩
  | .hbm, ⟨102, _⟩ => ⟨S128x200x256, .f32⟩
  | .hbm, ⟨103, _⟩ => ⟨S128x200x256, .f32⟩
  | .hbm, ⟨104, _⟩ => ⟨S_, .f32⟩
  | .hbm, ⟨105, _⟩ => ⟨S128x256, .f32⟩
  | _, _ => ⟨S128x200x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_8 : Ref sig .tc := ⟨.hbm, 71, rfl⟩
abbrev main_v49 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_12 : Ref sig .tc := ⟨.hbm, 104, rfl⟩
abbrev main_v78 : Ref sig .tc := ⟨.hbm, 105, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S128x200x256_0_1_2 : S1x1x256.BroadcastsInDim S128x200x256 (![0, 1, 2] : Fin 3 → Fin S128x200x256.rank)
  bcast_S_S128x200x200 : S_.BroadcastsInDim S128x200x200 (![] : Fin 0 → Fin S128x200x200.rank)
  reducesTo_S128x200x200_S128x200_d2 : S128x200x200.ReducesTo [2] S128x200
  h_S_ : 0 < S_.numel
  bcast_S_S128x200 : S_.BroadcastsInDim S128x200 (![] : Fin 0 → Fin S128x200.rank)
  bcast_S128x200_S128x200x1_0_1 : S128x200.BroadcastsInDim S128x200x1 (![0, 1] : Fin 2 → Fin S128x200x1.rank)
  bcast_S128x200x1_S128x200x200_0_1_2 : S128x200x1.BroadcastsInDim S128x200x200 (![0, 1, 2] : Fin 3 → Fin S128x200x200.rank)
  concatenates_S128x200x256_S128x200x256_S128x200x512_d2 : Shape.Concatenates [S128x200x256, S128x200x256] S128x200x512 2
  reducesTo_S128x200x256_S128x256_d1 : S128x200x256.ReducesTo [1] S128x256
  dot_S128x200x8_S8x256_S128x200x256_2_0_01_1_n_n_wf : DotDims.WF S128x200x8 S8x256 S128x200x256 [2] [0] [0, 1] [1] [] []
  dot_S128x200x256_S128x200x256_S128x200x200_2_2_1_1_0_0_wf : DotDims.WF S128x200x256 S128x200x256 S128x200x200 [2] [2] [1] [1] [0] [0]
  dot_S128x200x200_S128x200x256_S128x200x256_2_1_1_2_0_0_wf : DotDims.WF S128x200x200 S128x200x256 S128x200x256 [2] [1] [1] [2] [0] [0]
  dot_S128x200x512_S512x256_S128x200x256_2_0_01_1_n_n_wf : DotDims.WF S128x200x512 S512x256 S128x200x256 [2] [0] [0, 1] [1] [] []
  dot_S128x200x256_S256x256_S128x200x256_2_0_01_1_n_n_wf : DotDims.WF S128x200x256 S256x256 S128x200x256 [2] [0] [0, 1] [1] [] []

variable [Facts₀]

def dot_S128x200x8_S8x256_S128x200x256_2_0_01_1_n_n : DotDims S128x200x8 S8x256 S128x200x256 where
  lhsContracting := [2]
  rhsContracting := [0]
  lhsNonContracting := [0, 1]
  rhsNonContracting := [1]
  lhsBatch := []
  rhsBatch := []
  wf := dot_S128x200x8_S8x256_S128x200x256_2_0_01_1_n_n_wf
def dot_S128x200x256_S128x200x256_S128x200x200_2_2_1_1_0_0 : DotDims S128x200x256 S128x200x256 S128x200x200 where
  lhsContracting := [2]
  rhsContracting := [2]
  lhsNonContracting := [1]
  rhsNonContracting := [1]
  lhsBatch := [0]
  rhsBatch := [0]
  wf := dot_S128x200x256_S128x200x256_S128x200x200_2_2_1_1_0_0_wf
def dot_S128x200x200_S128x200x256_S128x200x256_2_1_1_2_0_0 : DotDims S128x200x200 S128x200x256 S128x200x256 where
  lhsContracting := [2]
  rhsContracting := [1]
  lhsNonContracting := [1]
  rhsNonContracting := [2]
  lhsBatch := [0]
  rhsBatch := [0]
  wf := dot_S128x200x200_S128x200x256_S128x200x256_2_1_1_2_0_0_wf
def dot_S128x200x512_S512x256_S128x200x256_2_0_01_1_n_n : DotDims S128x200x512 S512x256 S128x200x256 where
  lhsContracting := [2]
  rhsContracting := [0]
  lhsNonContracting := [0, 1]
  rhsNonContracting := [1]
  lhsBatch := []
  rhsBatch := []
  wf := dot_S128x200x512_S512x256_S128x200x256_2_0_01_1_n_n_wf
def dot_S128x200x256_S256x256_S128x200x256_2_0_01_1_n_n : DotDims S128x200x256 S256x256 S128x200x256 where
  lhsContracting := [2]
  rhsContracting := [0]
  lhsNonContracting := [0, 1]
  rhsNonContracting := [1]
  lhsBatch := []
  rhsBatch := []
  wf := dot_S128x200x256_S256x256_S128x200x256_2_0_01_1_n_n_wf

class Facts : Prop extends Facts₀ where

variable [Facts]
-- ==== Proof.KernelMember.lean ====
/-
  What the kernel computes for ONE jet (one grid point), as pure functions of that jet's block of `jets` and of the
  weights, and the two result arrays assembled from them jet by jet.

  A grid point `g` sees rows `g` of `jets` as a [1, 200, 8] block, every weight matrix whole, and every bias as a
  one-row matrix [1, 256] (the reshape the entry point applies before the call). From these it computes the hidden
  states of the three message-passing rounds, the soft adjacency of the last round (a [1, 200, 200] block of the second
  result) and the readout row (a [1, 1, 256] block of the first result, which the entry point then reshapes from
  [128, 1, 256] to [128, 256]).
-/
import proofs.«131165_g85813446574462_cont_9to1c4b_288_5_alg».proof.Proof.Gen.KernelIdeal.Skeleton
import Idealize.ShloMosaic.Lib.ValueIdx

noncomputable section

namespace Cert.KernelIdeal.Member

open Idealize.ShloMosaic Idealize.ShloMosaic.ValueIdx Cert.KernelIdeal Cert.KernelIdeal.Gen

/-- Jet `g`'s rows of `jets`, as the [1, 200, 8] block the grid point reads. -/
def jetBlock (jets : FVec Ideal S128x200x8 .f32) (g : Fin 128) : FVec Ideal S1x200x8 .f32 :=
  fun y => jets (ix3 g (y 1 : Fin 200) (y 2 : Fin 8))

/-- A bias vector as the one-row matrix the entry point reshapes it to. -/
def biasRow (b : FVec Ideal S256 .f32) : FVec Ideal S1x256 .f32 := shapeCast S1x256 b shapeCasts_S256_S1x256

/-- The soft adjacency of the last round for one jet, as the [1, 200, 200] block the grid point stores: from the
    jet's block, the embedding's weights and the first two rounds' weights. -/
def attnBlock (x : FVec Ideal S1x200x8 .f32) (We : FVec Ideal S8x256 .f32) (be : FVec Ideal S1x256 .f32)
    (W0 : FVec Ideal S512x256 .f32) (b0 : FVec Ideal S1x256 .f32) (W1 : FVec Ideal S512x256 .f32) (b1 : FVec Ideal S1x256 .f32) :
    FVec Ideal S1x200x200 .f32 :=
  k0_pay2 (k0_pay7 (k0_pay3 x We be W0 b0) (k0_pay4 x We be W0 b0) (k0_pay5 x We be W0 b0) W1 b1)

/-- The readout row for one jet, as the [1, 1, 256] block the grid point stores. -/
def outBlock (x : FVec Ideal S1x200x8 .f32) (We : FVec Ideal S8x256 .f32) (be : FVec Ideal S1x256 .f32)
    (W0 : FVec Ideal S512x256 .f32) (b0 : FVec Ideal S1x256 .f32) (W1 : FVec Ideal S512x256 .f32) (b1 : FVec Ideal S1x256 .f32)
    (W2 : FVec Ideal S512x256 .f32) (b2 : FVec Ideal S1x256 .f32) (Wr1 : FVec Ideal S256x256 .f32) (br1 : FVec Ideal S1x256 .f32)
    (Wr2 : FVec Ideal S256x256 .f32) (br2 : FVec Ideal S1x256 .f32) : FVec Ideal S1x1x256 .f32 :=
  k0_pay1 (k0_pay8 (k0_pay3 x We be W0 b0) (k0_pay4 x We be W0 b0) (k0_pay5 x We be W0 b0) W1 b1 W2) (k0_pay9 b2) Wr1 br1 Wr2 br2

/-- The second result, [128, 200, 200]: jet `g`'s soft adjacency at rows `g`. -/
def attnArr (jets : FVec Ideal S128x200x8 .f32) (We : FVec Ideal S8x256 .f32) (be : FVec Ideal S256 .f32)
    (W0 : FVec Ideal S512x256 .f32) (b0 : FVec Ideal S256 .f32) (W1 : FVec Ideal S512x256 .f32) (b1 : FVec Ideal S256 .f32) :
    FVec Ideal S128x200x200 .f32 :=
  fun i => attnBlock (jetBlock jets (i 0 : Fin 128)) We (biasRow be) W0 (biasRow b0) W1 (biasRow b1)
    (ix3 (0 : Fin 1) (i 1 : Fin 200) (i 2 : Fin 200))

/-- The first result after the entry point's reshape, [128, 256]: jet `g`'s readout row at row `g`. -/
def outArr (jets : FVec Ideal S128x200x8 .f32) (We : FVec Ideal S8x256 .f32) (be : FVec Ideal S256 .f32)
    (W0 : FVec Ideal S512x256 .f32) (b0 : FVec Ideal S256 .f32) (W1 : FVec Ideal S512x256 .f32) (b1 : FVec Ideal S256 .f32)
    (W2 : FVec Ideal S512x256 .f32) (b2 : FVec Ideal S256 .f32) (Wr1 : FVec Ideal S256x256 .f32) (br1 : FVec Ideal S256 .f32)
    (Wr2 : FVec Ideal S256x256 .f32) (br2 : FVec Ideal S256 .f32) : FVec Ideal S128x256 .f32 :=
  fun i => outBlock (jetBlock jets (i 0 : Fin 128)) We (biasRow be) W0 (biasRow b0) W1 (biasRow b1) W2 (biasRow b2)
    Wr1 (biasRow br1) Wr2 (biasRow br2) (ix3 (0 : Fin 1) (0 : Fin 1) (i 1 : Fin 256))

end Cert.KernelIdeal.Member

end
-- ==== Proof.KernelRun.lean ====
/-
  The idealized kernel's run with its two result arrays named.

  The call runs one grid point per jet. Point `g` reads rows `g` of `jets` as a [1, 200, 8] block, every weight
  matrix whole and every bias as the one-row matrix the entry point reshaped it to, and writes back rows `g` of the two
  results: the readout row, a [1, 1, 256] block of a [128, 1, 256] array, and the last round's soft adjacency, a
  [1, 200, 200] block of the [128, 200, 200] array. The 128 points' blocks tile both arrays, so each array ends as one
  function of the arguments, jet by jet; the entry point then drops the unit axis of the first.
-/
import proofs.«131165_g85813446574462_cont_9to1c4b_288_5_alg».proof.Proof.Gen.KernelIdeal.Frame
import proofs.«131165_g85813446574462_cont_9to1c4b_288_5_alg».proof.Proof.KernelMember
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.RunValue

open Cert.KernelIdeal Cert.KernelIdeal.Gen Cert.KernelIdeal.Member Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-! ## Where each window's block sits -/

theorem zero3 : (![0, 0, 0] : Fin 3 → Nat) = fun _ => 0 := funext fun a => by fin_cases a <;> rfl
theorem zero2 : (![0, 0] : Fin 2 → Nat) = fun _ => 0 := funext fun a => by fin_cases a <;> rfl

/-- The block index maps, decided over the 128 points: the jets' window and the two results' windows sit at the
    point's own row and at zero on the other axes. -/
theorem row_of_point : ∀ t : Fin cfg0.N,
    win0_0.index t (0 : Fin 3) = t.val ∧ win0_0.index t (1 : Fin 3) = 0 ∧ win0_0.index t (2 : Fin 3) = 0
    ∧ win0_13.index t (0 : Fin 3) = t.val ∧ win0_13.index t (1 : Fin 3) = 0 ∧ win0_13.index t (2 : Fin 3) = 0
    ∧ win0_14.index t (0 : Fin 3) = t.val ∧ win0_14.index t (1 : Fin 3) = 0 ∧ win0_14.index t (2 : Fin 3) = 0 :=
  (by decide +kernel : ∀ t : Fin grid0.N, _)

/-- The weights' and biases' windows sit at block zero at every point: each point sees them whole. -/
theorem whole_at_point : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

/-- A grid point as a jet number. -/
def jetOf (t : Fin cfg0.N) : Fin 128 := ⟨t.val, lt_of_lt_of_eq t.isLt N_0⟩

/-! ## The input blocks at a point -/

/-- The jets' block at point `t` is jet `t`'s rows. -/
theorem jets_block (c : Dev nD) (t : Fin cfg0.N) :
    (iblk m c 0 t : Vec Ideal S1x200x8 .f32) = jetBlock (V m c main_arg0) (jetOf t) := by
  obtain ⟨e0, e1, e2, -⟩ := row_of_point t
  funext x
  unfold iblk jetBlock
  rw [View.read_apply]
  show V m c main_arg0 _ = V m c main_arg0 _
  congr 1
  funext a
  apply Fin.ext
  match a with
  | ⟨0, _⟩ => show win0_0.index t (0 : Fin 3) * 1 + 1 * (x 0).val = t.val; have hx : (x 0).val < 1 := (x 0).isLt; rw [e0]; omega
  | ⟨1, _⟩ => show win0_0.index t (1 : Fin 3) * 200 + 1 * (x 1).val = (x 1).val; rw [e1]; omega
  | ⟨2, _⟩ => show win0_0.index t (2 : Fin 3) * 8 + 1 * (x 2).val = (x 2).val; rw [e2]; omega

/-- On an axis where a window's block index is zero, an element of the block has its own coordinate in the array. -/
theorem at_block_zero (q s x : Nat) (h : q = 0) : q * s + 1 * x = x := by subst h; omega

/-- A two-axis window whose block index is zero on both axes (`e`) and whose block has the array's extents `s0`, `s1`
    reads the array `A` itself: the element at `x` of the block is the array's at `x`. -/
local macro "reads_whole" A:term "," q0:term "," s0:term "," q1:term "," s1:term "," e:term : tactic =>
  `(tactic| (funext x; unfold iblk; rw [View.read_apply]; show $A _ = $A x; congr 1; funext a; apply Fin.ext
             match a with
             | ⟨0, _⟩ => exact at_block_zero $q0 $s0 (x 0).val ($e).1
             | ⟨1, _⟩ => exact at_block_zero $q1 $s1 (x 1).val ($e).2))

/-- Every point sees the embedding's weights whole. -/
theorem Wemb_block (c : Dev nD) (t : Fin cfg0.N) : (iblk m c 1 t : Vec Ideal S8x256 .f32) = V m c main_arg1 := by
  reads_whole V m c main_arg1, win0_1.index t (0 : Fin 2), 8, win0_1.index t (1 : Fin 2), 256, (whole_at_point t).1
/-- … and the embedding's bias row. -/
theorem bemb_block (c : Dev nD) (t : Fin cfg0.N) : (iblk m c 2 t : Vec Ideal S1x256 .f32) = V m c main_v0 := by
  reads_whole V m c main_v0, win0_2.index t (0 : Fin 2), 1, win0_2.index t (1 : Fin 2), 256, (whole_at_point t).2.1
/-- … the first round's weights. -/
theorem Wmp0_block (c : Dev nD) (t : Fin cfg0.N) : (iblk m c 3 t : Vec Ideal S512x256 .f32) = V m c main_arg3 := by
  reads_whole V m c main_arg3, win0_3.index t (0 : Fin 2), 512, win0_3.index t (1 : Fin 2), 256, (whole_at_point t).2.2.1
/-- … the first round's bias row. -/
theorem bmp0_block (c : Dev nD) (t : Fin cfg0.N) : (iblk m c 4 t : Vec Ideal S1x256 .f32) = V m c main_v1 := by
  reads_whole V m c main_v1, win0_4.index t (0 : Fin 2), 1, win0_4.index t (1 : Fin 2), 256, (whole_at_point t).2.2.2.1
/-- … the second round's weights. -/
theorem Wmp1_block (c : Dev nD) (t : Fin cfg0.N) : (iblk m c 5 t : Vec Ideal S512x256 .f32) = V m c main_arg5 := by
  reads_whole V m c main_arg5, win0_5.index t (0 : Fin 2), 512, win0_5.index t (1 : Fin 2), 256, (whole_at_point t).2.2.2.2.1
/-- … the second round's bias row. -/
theorem bmp1_block (c : Dev nD) (t : Fin cfg0.N) : (iblk m c 6 t : Vec Ideal S1x256 .f32) = V m c main_v2 := by
  reads_whole V m c main_v2, win0_6.index t (0 : Fin 2), 1, win0_6.index t (1 : Fin 2), 256, (whole_at_point t).2.2.2.2.2.1
/-- … the third round's weights. -/
theorem Wmp2_block (c : Dev nD) (t : Fin cfg0.N) : (iblk m c 7 t : Vec Ideal S512x256 .f32) = V m c main_arg7 := by
  reads_whole V m c main_arg7, win0_7.index t (0 : Fin 2), 512, win0_7.index t (1 : Fin 2), 256, (whole_at_point t).2.2.2.2.2.2.1
/-- … the third round's bias row. -/
theorem bmp2_block (c : Dev nD) (t : Fin cfg0.N) : (iblk m c 8 t : Vec Ideal S1x256 .f32) = V m c main_v3 := by
  reads_whole V m c main_v3, win0_8.index t (0 : Fin 2), 1, win0_8.index t (1 : Fin 2), 256, (whole_at_point t).2.2.2.2.2.2.2.1
/-- … the readout's first weights. -/
theorem Wr1_block (c : Dev nD) (t : Fin cfg0.N) : (iblk m c 9 t : Vec Ideal S256x256 .f32) = V m c main_arg9 := by
  reads_whole V m c main_arg9, win0_9.index t (0 : Fin 2), 256, win0_9.index t (1 : Fin 2), 256, (whole_at_point t).2.2.2.2.2.2.2.2.1
/-- … the readout's first bias row. -/
theorem br1_block (c : Dev nD) (t : Fin cfg0.N) : (iblk m c 10 t : Vec Ideal S1x256 .f32) = V m c main_v4 := by
  reads_whole V m c main_v4, win0_10.index t (0 : Fin 2), 1, win0_10.index t (1 : Fin 2), 256, (whole_at_point t).2.2.2.2.2.2.2.2.2.1
/-- … the readout's second weights. -/
theorem Wr2_block (c : Dev nD) (t : Fin cfg0.N) : (iblk m c 11 t : Vec Ideal S256x256 .f32) = V m c main_arg11 := by
  reads_whole V m c main_arg11, win0_11.index t (0 : Fin 2), 256, win0_11.index t (1 : Fin 2), 256, (whole_at_point t).2.2.2.2.2.2.2.2.2.2.1
/-- … and the readout's second bias row. -/
theorem br2_block (c : Dev nD) (t : Fin cfg0.N) : (iblk m c 12 t : Vec Ideal S1x256 .f32) = V m c main_v5 := by
  reads_whole V m c main_v5, win0_12.index t (0 : Fin 2), 1, win0_12.index t (1 : Fin 2), 256, (whole_at_point t).2.2.2.2.2.2.2.2.2.2.2

/-! ## The bias rows the entry point makes before the call -/

/-- When the call starts, the embedding's bias row is the bias reshaped. -/
theorem bemb_row (c : Dev nD) : V m c main_v0 = biasRow (m ((c.tc : Thread nD τ).loc main_arg2)) := by
  show StableHlo.after hostOps0 (fun b => m (c, b)) (Proc.devRef .tc main_v0) = _
  after_results
  rfl
/-- … and the first round's. -/
theorem bmp0_row (c : Dev nD) : V m c main_v1 = biasRow (m ((c.tc : Thread nD τ).loc main_arg4)) := by
  show StableHlo.after hostOps0 (fun b => m (c, b)) (Proc.devRef .tc main_v1) = _
  after_results
  rfl
/-- … the second round's. -/
theorem bmp1_row (c : Dev nD) : V m c main_v2 = biasRow (m ((c.tc : Thread nD τ).loc main_arg6)) := by
  show StableHlo.after hostOps0 (fun b => m (c, b)) (Proc.devRef .tc main_v2) = _
  after_results
  rfl
/-- … the third round's. -/
theorem bmp2_row (c : Dev nD) : V m c main_v3 = biasRow (m ((c.tc : Thread nD τ).loc main_arg8)) := by
  show StableHlo.after hostOps0 (fun b => m (c, b)) (Proc.devRef .tc main_v3) = _
  after_results
  rfl
/-- … the readout's first. -/
theorem br1_row (c : Dev nD) : V m c main_v4 = biasRow (m ((c.tc : Thread nD τ).loc main_arg10)) := by
  show StableHlo.after hostOps0 (fun b => m (c, b)) (Proc.devRef .tc main_v4) = _
  after_results
  rfl
/-- … and the readout's second. -/
theorem br2_row (c : Dev nD) : V m c main_v5 = biasRow (m ((c.tc : Thread nD τ).loc main_arg12)) := by
  show StableHlo.after hostOps0 (fun b => m (c, b)) (Proc.devRef .tc main_v5) = _
  after_results
  rfl

/-! ## What the body leaves in the two results' buffers -/

/-- The soft adjacency the body stores is `attnBlock` of the blocks it loaded: each load reads its whole buffer and
    the one store fills the result's buffer. -/
theorem body_attn (x0 : Vec Ideal S1x200x8 .f32) (x1 : Vec Ideal S8x256 .f32) (x2 : Vec Ideal S1x256 .f32) (x3 : Vec Ideal S512x256 .f32)
    (x4 : Vec Ideal S1x256 .f32) (x5 : Vec Ideal S512x256 .f32) (x6 : Vec Ideal S1x256 .f32) (x7 : Vec Ideal S512x256 .f32)
    (x8 : Vec Ideal S1x256 .f32) (x9 : Vec Ideal S256x256 .f32) (x10 : Vec Ideal S1x256 .f32) (x11 : Vec Ideal S256x256 .f32)
    (x12 : Vec Ideal S1x256 .f32) :
    out0_14 x0 x1 x2 x3 x4 x5 x6 x7 x8 x9 x10 x11 x12 = attnBlock x0 x1 x2 x3 x4 x5 x6 := by
  unfold out0_14 attnBlock
  rw [View.canon_unit_zero zero3]
  simp only [View.ld_unit_zero (S := S1x200x8) zero3, View.ld_unit_zero (S := S8x256) zero2,
    View.ld_unit_zero (S := S1x256) zero2, View.ld_unit_zero (S := S512x256) zero2]

/-- The readout row the body stores is `outBlock` of the blocks it loaded. -/
theorem body_out (x0 : Vec Ideal S1x200x8 .f32) (x1 : Vec Ideal S8x256 .f32) (x2 : Vec Ideal S1x256 .f32) (x3 : Vec Ideal S512x256 .f32)
    (x4 : Vec Ideal S1x256 .f32) (x5 : Vec Ideal S512x256 .f32) (x6 : Vec Ideal S1x256 .f32) (x7 : Vec Ideal S512x256 .f32)
    (x8 : Vec Ideal S1x256 .f32) (x9 : Vec Ideal S256x256 .f32) (x10 : Vec Ideal S1x256 .f32) (x11 : Vec Ideal S256x256 .f32)
    (x12 : Vec Ideal S1x256 .f32) :
    out0_13 x0 x1 x2 x3 x4 x5 x6 x7 x8 x9 x10 x11 x12 = outBlock x0 x1 x2 x3 x4 x5 x6 x7 x8 x9 x10 x11 x12 := by
  unfold out0_13 outBlock
  rw [View.canon_unit_zero zero3]
  simp only [View.ld_unit_zero (S := S1x200x8) zero3, View.ld_unit_zero (S := S8x256) zero2,
    View.ld_unit_zero (S := S1x256) zero2, View.ld_unit_zero (S := S512x256) zero2, View.ld_unit_zero (S := S256x256) zero2]

/-! ## The second result: the soft adjacencies, jet by jet -/

/-- The array at an index of jet `g`'s rows is jet `g`'s block at the index inside it. -/
theorem attnArr_at (jets : FVec Ideal S128x200x8 .f32) (We : FVec Ideal S8x256 .f32) (be : FVec Ideal S256 .f32)
    (W0 : FVec Ideal S512x256 .f32) (b0 : FVec Ideal S256 .f32) (W1 : FVec Ideal S512x256 .f32) (b1 : FVec Ideal S256 .f32)
    (g : Fin 128) (j : S1x200x200.Idx) (i : S128x200x200.Idx)
    (h0 : (i 0).val = g.val) (h1 : (i 1).val = (j 1).val) (h2 : (i 2).val = (j 2).val) :
    attnArr jets We be W0 b0 W1 b1 i = attnBlock (jetBlock jets g) We (biasRow be) W0 (biasRow b0) W1 (biasRow b1) j := by
  have e0 : (i 0 : Fin 128) = g := Fin.ext h0
  have ej : ix3 (0 : Fin 1) (i 1 : Fin 200) (i 2 : Fin 200) = j := by
    funext a
    match a with
    | ⟨0, _⟩ => exact Fin.ext (by have hj : (j 0).val < 1 := (j 0).isLt; show 0 = (j 0).val; omega)
    | ⟨1, _⟩ => exact Fin.ext h1
    | ⟨2, _⟩ => exact Fin.ext h2
  show attnBlock (jetBlock jets (i 0 : Fin 128)) We (biasRow be) W0 (biasRow b0) W1 (biasRow b1)
    (ix3 (0 : Fin 1) (i 1 : Fin 200) (i 2 : Fin 200)) = _
  rw [e0]
  exact congrArg (attnBlock (jetBlock jets g) We (biasRow be) W0 (biasRow b0) W1 (biasRow b1)) ej

/-- What point `t` writes back to the second result is block `t` of `attnArr` of the arguments. -/
theorem flushed_attn (c : Dev nD) (t : Fin cfg0.N) :
    (dats m 0 c).flushed 14 t = ((cfg0.win 14).blk t).view.read (Elt Ideal)
      (attnArr (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6))) := by
  show (cfg0.win 14).cut (grid0.coords t) ((dats m 0 c).after 14 t) = _
  rw [after0_14, body_attn (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t),
    jets_block m c t, Wemb_block m c t, bemb_block m c t, Wmp0_block m c t, bmp0_block m c t, Wmp1_block m c t, bmp1_block m c t,
    bemb_row m c, bmp0_row m c, bmp1_row m c, V_main_arg0 m c, V_main_arg1 m c, V_main_arg3 m c, V_main_arg5 m c]
  obtain ⟨-, -, -, -, -, -, e0, e1, e2⟩ := row_of_point t
  funext j
  refine (attnArr_at _ _ _ _ _ _ _ (jetOf t) j (((cfg0.win 14).blk t).view.emb j) ?_ ?_ ?_).symm
  · show win0_14.index t (0 : Fin 3) * 1 + 1 * (j 0).val = t.val
    have hj : (j 0).val < 1 := (j 0).isLt
    rw [e0]; omega
  · show win0_14.index t (1 : Fin 3) * 200 + 1 * (j 1).val = (j 1).val
    rw [e1]; omega
  · show win0_14.index t (2 : Fin 3) * 200 + 1 * (j 2).val = (j 2).val
    rw [e2]; omega

/-- An index of the second result is in point `t`'s block iff each coordinate is in the block's range on its axis. -/
theorem mem_attn_block (t : Fin cfg0.N) (i : S128x200x200.Idx) :
    i ∈ ((cfg0.win 14).blk t).view.set ↔ ∀ a : Fin 3, win0_14.index t a * S1x200x200.size a ≤ (i a).val
      ∧ (i a).val < win0_14.index t a * S1x200x200.size a + S1x200x200.size a := by
  show i ∈ ((View.whole main_v6_1).slice (win0_14.rect t)).set ↔ _
  rw [View.set_slice_whole, Rect.mem_set_unit]
  exact Iff.rfl

/-- The 128 points' blocks fill the second result: the point that covers row `r` is point `r`. -/
theorem attn_covered (i : S128x200x200.Idx) :
    ∃ t : Fin cfg0.N, (cfg0.win 14).flush t = true ∧ i ∈ ((cfg0.win 14).blk t).view.set := by
  have hi0 : (i 0).val < 128 := (i 0).isLt
  have hi1 : (i 1).val < 200 := (i 1).isLt
  have hi2 : (i 2).val < 200 := (i 2).isLt
  obtain ⟨t, ht⟩ : ∃ t : Fin cfg0.N, t.val = (i 0).val := ⟨⟨(i 0).val, lt_of_lt_of_eq hi0 N_0.symm⟩, rfl⟩
  obtain ⟨-, -, -, -, -, -, e0, e1, e2⟩ := row_of_point t
  refine ⟨t, flush0_14 t, ?_⟩
  rw [mem_attn_block]
  intro a
  match a with
  | ⟨0, _⟩ => show win0_14.index t (0 : Fin 3) * 1 ≤ (i 0).val ∧ (i 0).val < win0_14.index t (0 : Fin 3) * 1 + 1; rw [e0]; omega
  | ⟨1, _⟩ => show win0_14.index t (1 : Fin 3) * 200 ≤ (i 1).val ∧ (i 1).val < win0_14.index t (1 : Fin 3) * 200 + 200; rw [e1]; omega
  | ⟨2, _⟩ => show win0_14.index t (2 : Fin 3) * 200 ≤ (i 2).val ∧ (i 2).val < win0_14.index t (2 : Fin 3) * 200 + 200; rw [e2]; omega

/-- After the call the second result holds `attnArr` of the arguments. -/
theorem final_attn (c : Dev nD) :
    (dats m 0 c).arrAt 14 cfg0.N
      = attnArr (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) :=
  (dats m 0 c).arrAt_eq_of_cover 14 _ (fun t _ => flushed_attn m c t) attn_covered

/-! ## The first result before the reshape: the readout rows, jet by jet -/

/-- The first result as the call leaves it, [128, 1, 256]: jet `g`'s readout row at rows `g`. -/
def readoutRows (jets : FVec Ideal S128x200x8 .f32) (We : FVec Ideal S8x256 .f32) (be : FVec Ideal S256 .f32)
    (W0 : FVec Ideal S512x256 .f32) (b0 : FVec Ideal S256 .f32) (W1 : FVec Ideal S512x256 .f32) (b1 : FVec Ideal S256 .f32)
    (W2 : FVec Ideal S512x256 .f32) (b2 : FVec Ideal S256 .f32) (Wr1 : FVec Ideal S256x256 .f32) (br1 : FVec Ideal S256 .f32)
    (Wr2 : FVec Ideal S256x256 .f32) (br2 : FVec Ideal S256 .f32) : FVec Ideal S128x1x256 .f32 :=
  fun i => outBlock (jetBlock jets (i 0 : Fin 128)) We (biasRow be) W0 (biasRow b0) W1 (biasRow b1) W2 (biasRow b2)
    Wr1 (biasRow br1) Wr2 (biasRow br2) (ix3 (0 : Fin 1) (0 : Fin 1) (i 2 : Fin 256))

/-- That array at an index of jet `g`'s row is jet `g`'s block at the index inside it. -/
theorem readoutRows_at (jets : FVec Ideal S128x200x8 .f32) (We : FVec Ideal S8x256 .f32) (be : FVec Ideal S256 .f32)
    (W0 : FVec Ideal S512x256 .f32) (b0 : FVec Ideal S256 .f32) (W1 : FVec Ideal S512x256 .f32) (b1 : FVec Ideal S256 .f32)
    (W2 : FVec Ideal S512x256 .f32) (b2 : FVec Ideal S256 .f32) (Wr1 : FVec Ideal S256x256 .f32) (br1 : FVec Ideal S256 .f32)
    (Wr2 : FVec Ideal S256x256 .f32) (br2 : FVec Ideal S256 .f32)
    (g : Fin 128) (j : S1x1x256.Idx) (i : S128x1x256.Idx) (h0 : (i 0).val = g.val) (h2 : (i 2).val = (j 2).val) :
    readoutRows jets We be W0 b0 W1 b1 W2 b2 Wr1 br1 Wr2 br2 i
      = outBlock (jetBlock jets g) We (biasRow be) W0 (biasRow b0) W1 (biasRow b1) W2 (biasRow b2) Wr1 (biasRow br1) Wr2 (biasRow br2) j := by
  have e0 : (i 0 : Fin 128) = g := Fin.ext h0
  have ej : ix3 (0 : Fin 1) (0 : Fin 1) (i 2 : Fin 256) = j := by
    funext a
    match a with
    | ⟨0, _⟩ => exact Fin.ext (by have hj : (j 0).val < 1 := (j 0).isLt; show 0 = (j 0).val; omega)
    | ⟨1, _⟩ => exact Fin.ext (by have hj : (j 1).val < 1 := (j 1).isLt; show 0 = (j 1).val; omega)
    | ⟨2, _⟩ => exact Fin.ext h2
  show outBlock (jetBlock jets (i 0 : Fin 128)) We (biasRow be) W0 (biasRow b0) W1 (biasRow b1) W2 (biasRow b2)
    Wr1 (biasRow br1) Wr2 (biasRow br2) (ix3 (0 : Fin 1) (0 : Fin 1) (i 2 : Fin 256)) = _
  rw [e0]
  exact congrArg (outBlock (jetBlock jets g) We (biasRow be) W0 (biasRow b0) W1 (biasRow b1) W2 (biasRow b2)
    Wr1 (biasRow br1) Wr2 (biasRow br2)) ej

/-- What point `t` writes back to the first result is block `t` of `readoutRows` of the arguments. -/
theorem flushed_out (c : Dev nD) (t : Fin cfg0.N) :
    (dats m 0 c).flushed 13 t = ((cfg0.win 13).blk t).view.read (Elt Ideal)
      (readoutRows (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11))
        (m ((c.tc : Thread nD τ).loc main_arg12))) := by
  show (cfg0.win 13).cut (grid0.coords t) ((dats m 0 c).after 13 t) = _
  rw [after0_13, body_out (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t),
    jets_block m c t, Wemb_block m c t, bemb_block m c t, Wmp0_block m c t, bmp0_block m c t, Wmp1_block m c t, bmp1_block m c t,
    Wmp2_block m c t, bmp2_block m c t, Wr1_block m c t, br1_block m c t, Wr2_block m c t, br2_block m c t,
    bemb_row m c, bmp0_row m c, bmp1_row m c, bmp2_row m c, br1_row m c, br2_row m c,
    V_main_arg0 m c, V_main_arg1 m c, V_main_arg3 m c, V_main_arg5 m c, V_main_arg7 m c, V_main_arg9 m c, V_main_arg11 m c]
  obtain ⟨-, -, -, e0, e1, e2, -⟩ := row_of_point t
  funext j
  refine (readoutRows_at _ _ _ _ _ _ _ _ _ _ _ _ _ (jetOf t) j (((cfg0.win 13).blk t).view.emb j) ?_ ?_).symm
  · show win0_13.index t (0 : Fin 3) * 1 + 1 * (j 0).val = t.val
    have hj : (j 0).val < 1 := (j 0).isLt
    rw [e0]; omega
  · show win0_13.index t (2 : Fin 3) * 256 + 1 * (j 2).val = (j 2).val
    rw [e2]; omega

/-- An index of the first result is in point `t`'s block iff each coordinate is in the block's range on its axis. -/
theorem mem_out_block (t : Fin cfg0.N) (i : S128x1x256.Idx) :
    i ∈ ((cfg0.win 13).blk t).view.set ↔ ∀ a : Fin 3, win0_13.index t a * S1x1x256.size a ≤ (i a).val
      ∧ (i a).val < win0_13.index t a * S1x1x256.size a + S1x1x256.size a := by
  show i ∈ ((View.whole main_v6_0).slice (win0_13.rect t)).set ↔ _
  rw [View.set_slice_whole, Rect.mem_set_unit]
  exact Iff.rfl

/-- The 128 points' blocks fill the first result too. -/
theorem out_covered (i : S128x1x256.Idx) :
    ∃ t : Fin cfg0.N, (cfg0.win 13).flush t = true ∧ i ∈ ((cfg0.win 13).blk t).view.set := by
  have hi0 : (i 0).val < 128 := (i 0).isLt
  have hi1 : (i 1).val < 1 := (i 1).isLt
  have hi2 : (i 2).val < 256 := (i 2).isLt
  obtain ⟨t, ht⟩ : ∃ t : Fin cfg0.N, t.val = (i 0).val := ⟨⟨(i 0).val, lt_of_lt_of_eq hi0 N_0.symm⟩, rfl⟩
  obtain ⟨-, -, -, e0, e1, e2, -⟩ := row_of_point t
  refine ⟨t, flush0_13 t, ?_⟩
  rw [mem_out_block]
  intro a
  match a with
  | ⟨0, _⟩ => show win0_13.index t (0 : Fin 3) * 1 ≤ (i 0).val ∧ (i 0).val < win0_13.index t (0 : Fin 3) * 1 + 1; rw [e0]; omega
  | ⟨1, _⟩ => show win0_13.index t (1 : Fin 3) * 1 ≤ (i 1).val ∧ (i 1).val < win0_13.index t (1 : Fin 3) * 1 + 1; rw [e1]; omega
  | ⟨2, _⟩ => show win0_13.index t (2 : Fin 3) * 256 ≤ (i 2).val ∧ (i 2).val < win0_13.index t (2 : Fin 3) * 256 + 256; rw [e2]; omega

/-- After the call the first result's array holds `readoutRows` of the arguments. -/
theorem final_out (c : Dev nD) :
    (dats m 0 c).arrAt 13 cfg0.N
      = readoutRows (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11))
        (m ((c.tc : Thread nD τ).loc main_arg12)) :=
  (dats m 0 c).arrAt_eq_of_cover 13 _ (fun t _ => flushed_out m c t) out_covered

/-! ## The entry point's reshape, and the run -/

/-- Dropping the unit axis of `readoutRows` gives `outArr`: row `g`, column `k` of the [128, 256] array is the element at
    (`g`, 0, `k`) of the [128, 1, 256] one, which has the same place in row-major order. -/
theorem reshape_readout (jets : FVec Ideal S128x200x8 .f32) (We : FVec Ideal S8x256 .f32) (be : FVec Ideal S256 .f32)
    (W0 : FVec Ideal S512x256 .f32) (b0 : FVec Ideal S256 .f32) (W1 : FVec Ideal S512x256 .f32) (b1 : FVec Ideal S256 .f32)
    (W2 : FVec Ideal S512x256 .f32) (b2 : FVec Ideal S256 .f32) (Wr1 : FVec Ideal S256x256 .f32) (br1 : FVec Ideal S256 .f32)
    (Wr2 : FVec Ideal S256x256 .f32) (br2 : FVec Ideal S256 .f32) :
    shapeCast S128x256 (readoutRows jets We be W0 b0 W1 b1 W2 b2 Wr1 br1 Wr2 br2) shapeCasts_S128x1x256_S128x256
      = outArr jets We be W0 b0 W1 b1 W2 b2 Wr1 br1 Wr2 br2 := by
  funext j
  have hj0 : (j 0).val < 128 := (j 0).isLt
  have hj1 : (j 1).val < 256 := (j 1).isLt
  refine (shapeCast_apply _ _ j (ix3 (j 0 : Fin 128) (0 : Fin 1) (j 1 : Fin 256)) ?_).trans rfl
  rw [Shape.rowMajor_val_three, Shape.rowMajor_val_two]
  show ((j 0).val * 1 + 0) * 256 + (j 1).val = (j 0).val * 256 + (j 1).val
  omega

/-- After the entry point's last line, its first result holds `outArr` of the arguments. -/
theorem tail_out (c : Dev nD) :
    Pipeline.afterTail₀ cfgs (dats m) 0 (V0 m) [hostOps1] c main_v7
      = outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold Pipeline.afterTail₀
  show StableHlo.after hostOps1 _ (Proc.devRef .tc main_v7) = _
  after_results
  rw [(Pipeline.withArrays_arr spec0 launch0.win.arr_inj c _ _ 13).trans (final_out m c)]
  exact reshape_readout _ _ _ _ _ _ _ _ _ _ _ _ _

/-- THE RUN: every execution of the entry point terminates with the first result at `outArr` of the arguments, the second at
    `attnArr` of them, and the thirteen arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v7) = outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v6_1) = attnArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨((h c).2 main_v7 (Pipeline.mem_restRefs_of main_v7 (by decide) (by decide))).trans (tail_out m c),
      ((h c).1 14).trans (final_attn m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c),
      ((h c).1 7).trans (((dats m 0 c).arrAt_in 7 rfl _).trans ((A_eq m c 7).trans (V_main_arg7 m c))),
      ((h c).2 main_arg8 (Pipeline.mem_restRefs_of main_arg8 (by decide) (by decide))).trans (W_main_arg8 m (dats m) c),
      ((h c).1 9).trans (((dats m 0 c).arrAt_in 9 rfl _).trans ((A_eq m c 9).trans (V_main_arg9 m c))),
      ((h c).2 main_arg10 (Pipeline.mem_restRefs_of main_arg10 (by decide) (by decide))).trans (W_main_arg10 m (dats m) c),
      ((h c).1 11).trans (((dats m 0 c).arrAt_in 11 rfl _).trans ((A_eq m c 11).trans (V_main_arg11 m c))),
      ((h c).2 main_arg12 (Pipeline.mem_restRefs_of main_arg12 (by decide) (by decide))).trans (W_main_arg12 m (dats m) c)⟩)
    (run_main m ρ)

end Cert.KernelIdeal.RunValue

end
-- ==== Proof.KernelOps.lean ====
/-
  The kernel body's operations read at one index, at the ideal values.

  The body works on one jet: matrices [200, 256] and [200, 200], a bias as a one-row matrix copied down the 200
  particles, a row statistic (maximum, sum) as a vector [200] turned into a column and copied along the row, the two
  halves of a [512, 256] matrix cut out as [256, 256] slices, and the unit axes of a block dropped or added by shape
  casts. Each lemma names the entry an operation's result holds at (n, k) in terms of its operands' entries.
-/
import proofs.«131165_g85813446574462_cont_9to1c4b_288_5_alg».proof.Proof.Gen.KernelIdeal
import Idealize.ShloMosaic.Lib.ValueIdx
import Idealize.ShloMosaic.Lib.ValueLayout
import Idealize.ShloMosaic.Lib.Pipeline.Value
import Idealize.ShloMosaic.PureOps.Ideal.Laws

noncomputable section

namespace Cert.KernelOps

open Idealize.ShloMosaic Idealize.ShloMosaic.ValueIdx Cert.KernelIdeal
open scoped BigOperators

/-- `tanh` of a vector, at an index. -/
theorem tanh_apply {s : Shape} (x : FVec Ideal s .f32) (i : s.Idx) : tanh x i = Ideal.tanh (x i) := rfl
/-- `exp` of a vector, at an index. -/
theorem exp_apply {s : Shape} (x : FVec Ideal s .f32) (i : s.Idx) : exp x i = Ideal.exp (x i) := rfl

/-- A bias row copied down the 200 particles reads the row at the column. -/
theorem biasRow_apply (b : FVec Ideal S1x256 .f32) (h1 : S1x256.ShapeCasts S1x256) (h2 : S1x256.Broadcasts S200x256)
    (n : Fin 200) (k : Fin 256) :
    broadcastTo S200x256 (shapeCast S1x256 b h1) h2 (ix2 n k) = b (ix2 (0 : Fin 1) k) := by
  rw [shapeCast_self]
  exact broadcastTo_1b_ab_apply b h2 n k

/-- A row statistic, as a column copied along the row, reads the statistic of the row. -/
theorem column_apply (v : FVec Ideal S200 .f32) (h1 : S200.ShapeCasts S200x1) (h2 : S200x1.Broadcasts S200x200)
    (n m : Fin 200) :
    broadcastTo S200x200 (shapeCast S200x1 v h1) h2 (ix2 n m) = v (ix1 n) := by
  refine (broadcastTo_apply (shapeCast S200x1 v h1) h2 (ix2 n m) (ix2 n (0 : Fin 1)) (fun ax => ?_)).trans ?_
  · match ax with
    | ⟨0, _⟩ => rfl
    | ⟨1, _⟩ => rfl
  · exact shapeCast_apply v h1 (ix2 n (0 : Fin 1)) (ix1 n) (by
      rw [Shape.rowMajor_val_one, Shape.rowMajor_val_two]
      show n.val = n.val * 1 + 0
      omega)

/-- A row's maximum: the fold of `max` from −∞ over the row. -/
theorem rowMax_apply (l : FVec Ideal S200x200 .f32) (h : S200x200.Reduces [1] S200) (hφ : FTy.f32 = FTy.f32 ∨ FTy.f32 = FTy.bf16)
    (hacc : (0xFF800000#32 : BitVec 32) = 0xFF800000#32) (n : Fin 200) :
    multiReduction .maximumf [1] S200 l 0xFF800000#32 h hφ hacc (ix1 n)
      = (Finset.univ : Finset (Fin 200)).fold max (Ideal.ofBits .f32 0xFF800000#32) (fun m => l (ix2 n m)) := by
  refine (Ideal.multiReduction_maximumf_single l 0xFF800000#32 h hφ hacc (ix1 n)).trans ?_
  refine Finset.fold_congr fun m _ => congrArg l (funext fun ax => Fin.ext ?_)
  match ax with
  | ⟨0, _⟩ => rfl
  | ⟨1, _⟩ => rfl

/-- A row's sum. -/
theorem rowSum_apply (e : FVec Ideal S200x200 .f32) (h : S200x200.Reduces [1] S200) (hφ : FTy.f32 = FTy.f32 ∨ FTy.f32 = FTy.bf16)
    (hacc : (0x00000000#32 : BitVec 32) = 0x00000000#32) (n : Fin 200) :
    multiReduction .add [1] S200 e 0x00000000#32 h hφ hacc (ix1 n) = ∑ m : Fin 200, e (ix2 n m) := by
  refine (Ideal.multiReduction_add_single e 0x00000000#32 h hφ hacc (ix1 n)).trans ?_
  refine Finset.sum_congr rfl fun m _ => congrArg e (funext fun ax => Fin.ext ?_)
  match ax with
  | ⟨0, _⟩ => rfl
  | ⟨1, _⟩ => rfl

/-- A column's sum over the 200 particles. -/
theorem colSum_apply (y : FVec Ideal S200x256 .f32) (h : S200x256.Reduces [0] S256) (hφ : FTy.f32 = FTy.f32 ∨ FTy.f32 = FTy.bf16)
    (hacc : (0x00000000#32 : BitVec 32) = 0x00000000#32) (k : Fin 256) :
    multiReduction .add [0] S256 y 0x00000000#32 h hφ hacc (ix1 k) = ∑ n : Fin 200, y (ix2 n k) := by
  refine (Ideal.multiReduction_add_single y 0x00000000#32 h hφ hacc (ix1 k)).trans ?_
  refine Finset.sum_congr rfl fun n _ => congrArg y (funext fun ax => Fin.ext ?_)
  match ax with
  | ⟨0, _⟩ => rfl
  | ⟨1, _⟩ => rfl

/-- The upper half of a round's matrix: rows 0 to 255. -/
theorem upperHalf_apply (W : FVec Ideal S512x256 .f32) (h : S512x256.Slices ![0, 0] S256x256) (c k : Fin 256) :
    extractStridedSlice S256x256 ![0, 0] W h (ix2 c k) = W (ix2 (Fin.castAdd 256 c : Fin 512) k) :=
  slice2_axis0_apply 0 W h c k (Fin.castAdd 256 c : Fin 512) (by show c.val = 0 + c.val; omega)

/-- The lower half of a round's matrix: rows 256 to 511. -/
theorem lowerHalf_apply (W : FVec Ideal S512x256 .f32) (h : S512x256.Slices ![256, 0] S256x256) (c k : Fin 256) :
    extractStridedSlice S256x256 ![256, 0] W h (ix2 c k) = W (ix2 (Fin.natAdd 256 c : Fin 512) k) :=
  slice2_axis0_apply 256 W h c k (Fin.natAdd 256 c : Fin 512) rfl

/-- A jet's [1, 200, 8] block with its unit axis dropped. -/
theorem jetRows_apply (x : FVec Ideal S1x200x8 .f32) (h : S1x200x8.ShapeCasts S200x8) (n : Fin 200) (f : Fin 8) :
    shapeCast S200x8 x h (ix2 n f) = x (ix3 (0 : Fin 1) n f) :=
  shapeCast_1ab_ab_apply x h n f

/-- A vector [256] as a one-row matrix. -/
theorem asRow_apply (v : FVec Ideal S256 .f32) (h : S256.ShapeCasts S1x256) (k : Fin 256) :
    shapeCast S1x256 v h (ix2 (0 : Fin 1) k) = v (ix1 k) :=
  shapeCast_a_1a_apply v h 0 k

/-- A one-row matrix as the [1, 1, 256] block of the first result. -/
theorem asOutBlock_apply (v : FVec Ideal S1x256 .f32) (h : S1x256.ShapeCasts S1x1x256) (k : Fin 256) :
    shapeCast S1x1x256 v h (ix3 (0 : Fin 1) (0 : Fin 1) k) = v (ix2 (0 : Fin 1) k) :=
  shapeCast_ab_1ab_apply v h 0 0 k

/-- A [200, 200] matrix as the [1, 200, 200] block of the second result. -/
theorem asAttnBlock_apply (a : FVec Ideal S200x200 .f32) (h : S200x200.ShapeCasts S1x200x200) (n m : Fin 200) :
    shapeCast S1x200x200 a h (ix3 (0 : Fin 1) n m) = a (ix2 n m) :=
  shapeCast_ab_1ab_apply a h 0 n m

end Cert.KernelOps

end
-- ==== Proof.LibOneAxisContraction.lean ====
/-
  A contraction over ONE axis, read at one entry of the result, is a plain sum over the contracted coordinate.

  A GENERAL lemma file (any shapes, any dimension numbers with a single contracting axis): a kernel's matmul into a
  zero accumulator and a reference's dot_general, at the ideal values, hold at each entry the sum, over the one
  contracted coordinate, of the products of the operands' entries, once one knows which entry of each operand sits at a
  given result index and contraction position — the two hypotheses `hL`, `hR` of the lemmas below, which a certificate
  proves per dimension-number record (axis by axis: off the contracted axis an operand index reads the result index, on
  it the contracted coordinate, by `contrEquiv1_symm_val`).
-/
import Idealize.ShloMosaic.Lib.ValueIdx
import Idealize.ShloMosaic.PureOps.Ideal.Laws

noncomputable section

namespace Cert.Dots

open Idealize.ShloMosaic Idealize.ShloMosaic.ValueIdx
open scoped BigOperators

/-- A contraction over ONE axis of extent `K`, read at a result index: once the two operand indices at contraction
    position `c` are known (`hL`, `hR`), the product is the sum over `c` of the operands' entries there. -/
theorem dotGeneral_apply_of {sl sr so : Shape} {φ₁ φ₂ : FTy} (d : DotDims sl sr so) (K : Nat) (hr : d.contr.rank = 1)
    (hs : d.contr.size ⟨0, by omega⟩ = K) (prec : Option ContractPrecision) (sched : HostSchedule)
    (lhs : FVec Ideal sl φ₁) (rhs : FVec Ideal sr φ₂) (j : so.Idx) (L : Fin K → sl.Idx) (R : Fin K → sr.Idx)
    (hL : ∀ c, d.lhsIdx j ((contrEquiv1 d K hr hs).symm c) = L c)
    (hR : ∀ c, d.rhsIdx j ((contrEquiv1 d K hr hs).symm c) = R c) :
    FloatOps.dotGeneral d prec sched lhs rhs j = ∑ c : Fin K, lhs (L c) * rhs (R c) := by
  rw [Ideal.dotGeneral_apply, ← Equiv.sum_comp (contrEquiv1 d K hr hs).symm]
  exact Finset.sum_congr rfl fun c _ => by rw [hL c, hR c]

/-- The same for a `tpu.matmul` into the zero accumulator. -/
theorem matmul_zero_apply_of {sl sr so : Shape} {φ₁ φ₂ : FTy} (d : DotDims sl sr so) (K : Nat) (hr : d.contr.rank = 1)
    (hs : d.contr.size ⟨0, by omega⟩ = K) (prec : Option ContractPrecision)
    (lhs : FVec Ideal sl φ₁) (rhs : FVec Ideal sr φ₂) (j : so.Idx) (L : Fin K → sl.Idx) (R : Fin K → sr.Idx)
    (hL : ∀ c, d.lhsIdx j ((contrEquiv1 d K hr hs).symm c) = L c)
    (hR : ∀ c, d.rhsIdx j ((contrEquiv1 d K hr hs).symm c) = R c) :
    matmul d prec lhs rhs (constant so .f32 0x00000000#32) j = ∑ c : Fin K, lhs (L c) * rhs (R c) := by
  show FloatOps.matmul d prec lhs rhs (constant so .f32 0x00000000#32) j = _
  rw [Ideal.matmul_constant_zero_apply, ← Equiv.sum_comp (contrEquiv1 d K hr hs).symm]
  exact Finset.sum_congr rfl fun c _ => by rw [hL c, hR c]

end Cert.Dots

end
-- ==== Proof.DotRecords.lean ====
/- Every matrix product of the two programs, read at one entry as a plain sum over the contracted coordinate: the
  kernel's four products per jet (a matmul into a zero accumulator) and the reference's five over the whole stack of 128
  jets (three carry the jet axis on the left operand only, two are batched over it). Each is the one-axis contraction
  lemma of LibOneAxisContraction.lean at that record: off the contracted axis an operand index reads the result index, on it the
  contracted coordinate. -/
import proofs.«131165_g85813446574462_cont_9to1c4b_288_5_alg».proof.Proof.Gen.KernelIdeal
import proofs.«131165_g85813446574462_cont_9to1c4b_288_5_alg».proof.Proof.Gen.ReferenceIdeal
import proofs.«131165_g85813446574462_cont_9to1c4b_288_5_alg».proof.Proof.LibOneAxisContraction

noncomputable section

namespace Cert.Dots

open Idealize.ShloMosaic Idealize.ShloMosaic.ValueIdx
open scoped BigOperators

/-! ## The kernel's four products -/

namespace Kernel
open Cert.KernelIdeal

/-- [200, 8] by [8, 256]: a jet's features times the embedding matrix. -/
theorem embed_apply (x : FVec Ideal S200x8 .f32) (y : FVec Ideal S8x256 .f32) (n : Fin 200) (k : Fin 256) :
    matmul dot_S200x8_S8x256_S200x256_1_0_0_1_n_n none x y (constant S200x256 .f32 0x00000000#32) (ix2 n k)
      = ∑ c : Fin 8, x (ix2 n c) * y (ix2 c k) := by
  refine matmul_zero_apply_of dot_S200x8_S8x256_S200x256_1_0_0_1_n_n 8 rfl rfl none x y (ix2 n k) _ _ (fun c => ?_) (fun c => ?_)
  · have c2 := contrEquiv1_symm_val dot_S200x8_S8x256_S200x256_1_0_0_1_n_n 8 rfl rfl c
    funext ax; apply Fin.ext
    match ax with
    | ⟨0, _⟩ => simp [DotDims.lhsIdx, dot_S200x8_S8x256_S200x256_1_0_0_1_n_n]; rfl
    | ⟨1, _⟩ => simp [DotDims.lhsIdx, dot_S200x8_S8x256_S200x256_1_0_0_1_n_n]; exact c2
  · have c2 := contrEquiv1_symm_val dot_S200x8_S8x256_S200x256_1_0_0_1_n_n 8 rfl rfl c
    funext ax; apply Fin.ext
    match ax with
    | ⟨0, _⟩ => simp [DotDims.rhsIdx, dot_S200x8_S8x256_S200x256_1_0_0_1_n_n]; exact c2
    | ⟨1, _⟩ => simp [DotDims.rhsIdx, dot_S200x8_S8x256_S200x256_1_0_0_1_n_n]; rfl

/-- [200, 256] by [200, 256] contracted on the hidden axis of both: the inner products of the hidden states of two particles. -/
theorem gram_apply (x : FVec Ideal S200x256 .f32) (y : FVec Ideal S200x256 .f32) (n m : Fin 200) :
    matmul dot_S200x256_S200x256_S200x200_1_1_0_0_n_n none x y (constant S200x200 .f32 0x00000000#32) (ix2 n m)
      = ∑ c : Fin 256, x (ix2 n c) * y (ix2 m c) := by
  refine matmul_zero_apply_of dot_S200x256_S200x256_S200x200_1_1_0_0_n_n 256 rfl rfl none x y (ix2 n m) _ _ (fun c => ?_) (fun c => ?_)
  · have c2 := contrEquiv1_symm_val dot_S200x256_S200x256_S200x200_1_1_0_0_n_n 256 rfl rfl c
    funext ax; apply Fin.ext
    match ax with
    | ⟨0, _⟩ => simp [DotDims.lhsIdx, dot_S200x256_S200x256_S200x200_1_1_0_0_n_n]; rfl
    | ⟨1, _⟩ => simp [DotDims.lhsIdx, dot_S200x256_S200x256_S200x200_1_1_0_0_n_n]; exact c2
  · have c2 := contrEquiv1_symm_val dot_S200x256_S200x256_S200x200_1_1_0_0_n_n 256 rfl rfl c
    funext ax; apply Fin.ext
    match ax with
    | ⟨0, _⟩ => simp [DotDims.rhsIdx, dot_S200x256_S200x256_S200x200_1_1_0_0_n_n]; rfl
    | ⟨1, _⟩ => simp [DotDims.rhsIdx, dot_S200x256_S200x256_S200x200_1_1_0_0_n_n]; exact c2

/-- [200, 200] by [200, 256]: the adjacency's rows averaging the hidden states. -/
theorem mix_apply (x : FVec Ideal S200x200 .f32) (y : FVec Ideal S200x256 .f32) (n : Fin 200) (k : Fin 256) :
    matmul dot_S200x200_S200x256_S200x256_1_0_0_1_n_n none x y (constant S200x256 .f32 0x00000000#32) (ix2 n k)
      = ∑ c : Fin 200, x (ix2 n c) * y (ix2 c k) := by
  refine matmul_zero_apply_of dot_S200x200_S200x256_S200x256_1_0_0_1_n_n 200 rfl rfl none x y (ix2 n k) _ _ (fun c => ?_) (fun c => ?_)
  · have c2 := contrEquiv1_symm_val dot_S200x200_S200x256_S200x256_1_0_0_1_n_n 200 rfl rfl c
    funext ax; apply Fin.ext
    match ax with
    | ⟨0, _⟩ => simp [DotDims.lhsIdx, dot_S200x200_S200x256_S200x256_1_0_0_1_n_n]; rfl
    | ⟨1, _⟩ => simp [DotDims.lhsIdx, dot_S200x200_S200x256_S200x256_1_0_0_1_n_n]; exact c2
  · have c2 := contrEquiv1_symm_val dot_S200x200_S200x256_S200x256_1_0_0_1_n_n 200 rfl rfl c
    funext ax; apply Fin.ext
    match ax with
    | ⟨0, _⟩ => simp [DotDims.rhsIdx, dot_S200x200_S200x256_S200x256_1_0_0_1_n_n]; exact c2
    | ⟨1, _⟩ => simp [DotDims.rhsIdx, dot_S200x200_S200x256_S200x256_1_0_0_1_n_n]; rfl

/-- [200, 256] by [256, 256]: hidden states times a square weight matrix. -/
theorem dense_apply (x : FVec Ideal S200x256 .f32) (y : FVec Ideal S256x256 .f32) (n : Fin 200) (k : Fin 256) :
    matmul dot_S200x256_S256x256_S200x256_1_0_0_1_n_n none x y (constant S200x256 .f32 0x00000000#32) (ix2 n k)
      = ∑ c : Fin 256, x (ix2 n c) * y (ix2 c k) := by
  refine matmul_zero_apply_of dot_S200x256_S256x256_S200x256_1_0_0_1_n_n 256 rfl rfl none x y (ix2 n k) _ _ (fun c => ?_) (fun c => ?_)
  · have c2 := contrEquiv1_symm_val dot_S200x256_S256x256_S200x256_1_0_0_1_n_n 256 rfl rfl c
    funext ax; apply Fin.ext
    match ax with
    | ⟨0, _⟩ => simp [DotDims.lhsIdx, dot_S200x256_S256x256_S200x256_1_0_0_1_n_n]; rfl
    | ⟨1, _⟩ => simp [DotDims.lhsIdx, dot_S200x256_S256x256_S200x256_1_0_0_1_n_n]; exact c2
  · have c2 := contrEquiv1_symm_val dot_S200x256_S256x256_S200x256_1_0_0_1_n_n 256 rfl rfl c
    funext ax; apply Fin.ext
    match ax with
    | ⟨0, _⟩ => simp [DotDims.rhsIdx, dot_S200x256_S256x256_S200x256_1_0_0_1_n_n]; exact c2
    | ⟨1, _⟩ => simp [DotDims.rhsIdx, dot_S200x256_S256x256_S200x256_1_0_0_1_n_n]; rfl

end Kernel

/-! ## The reference's five products -/

namespace Reference
open Cert.ReferenceIdeal

/-- [128, 200, 8] by [8, 256]: every jet's features times the embedding matrix. -/
theorem embed_apply (x : FVec Ideal S128x200x8 .f32) (y : FVec Ideal S8x256 .f32) (g : Fin 128) (n : Fin 200) (k : Fin 256) :
    Host.dotGeneral dot_S128x200x8_S8x256_S128x200x256_2_0_01_1_n_n none x y (ix3 g n k)
      = ∑ c : Fin 8, x (ix3 g n c) * y (ix2 c k) := by
  show FloatOps.dotGeneral dot_S128x200x8_S8x256_S128x200x256_2_0_01_1_n_n none _ x y (ix3 g n k) = _
  refine dotGeneral_apply_of dot_S128x200x8_S8x256_S128x200x256_2_0_01_1_n_n 8 rfl rfl none _ x y (ix3 g n k) _ _ (fun c => ?_) (fun c => ?_)
  · have c2 := contrEquiv1_symm_val dot_S128x200x8_S8x256_S128x200x256_2_0_01_1_n_n 8 rfl rfl c
    funext ax; apply Fin.ext
    match ax with
    | ⟨0, _⟩ => simp [DotDims.lhsIdx, dot_S128x200x8_S8x256_S128x200x256_2_0_01_1_n_n]; rfl
    | ⟨1, _⟩ => simp [DotDims.lhsIdx, dot_S128x200x8_S8x256_S128x200x256_2_0_01_1_n_n]; rfl
    | ⟨2, _⟩ => simp [DotDims.lhsIdx, dot_S128x200x8_S8x256_S128x200x256_2_0_01_1_n_n]; exact c2
  · have c2 := contrEquiv1_symm_val dot_S128x200x8_S8x256_S128x200x256_2_0_01_1_n_n 8 rfl rfl c
    funext ax; apply Fin.ext
    match ax with
    | ⟨0, _⟩ => simp [DotDims.rhsIdx, dot_S128x200x8_S8x256_S128x200x256_2_0_01_1_n_n]; exact c2
    | ⟨1, _⟩ => simp [DotDims.rhsIdx, dot_S128x200x8_S8x256_S128x200x256_2_0_01_1_n_n]; rfl

/-- [128, 200, 256] by [128, 200, 256], jet by jet, contracted on the hidden axis of both. -/
theorem gram_apply (x : FVec Ideal S128x200x256 .f32) (y : FVec Ideal S128x200x256 .f32) (g : Fin 128) (n m : Fin 200) :
    Host.dotGeneral dot_S128x200x256_S128x200x256_S128x200x200_2_2_1_1_0_0 none x y (ix3 g n m)
      = ∑ c : Fin 256, x (ix3 g n c) * y (ix3 g m c) := by
  show FloatOps.dotGeneral dot_S128x200x256_S128x200x256_S128x200x200_2_2_1_1_0_0 none _ x y (ix3 g n m) = _
  refine dotGeneral_apply_of dot_S128x200x256_S128x200x256_S128x200x200_2_2_1_1_0_0 256 rfl rfl none _ x y (ix3 g n m) _ _ (fun c => ?_) (fun c => ?_)
  · have c2 := contrEquiv1_symm_val dot_S128x200x256_S128x200x256_S128x200x200_2_2_1_1_0_0 256 rfl rfl c
    funext ax; apply Fin.ext
    match ax with
    | ⟨0, _⟩ => simp [DotDims.lhsIdx, dot_S128x200x256_S128x200x256_S128x200x200_2_2_1_1_0_0]; rfl
    | ⟨1, _⟩ => simp [DotDims.lhsIdx, dot_S128x200x256_S128x200x256_S128x200x200_2_2_1_1_0_0]; rfl
    | ⟨2, _⟩ => simp [DotDims.lhsIdx, dot_S128x200x256_S128x200x256_S128x200x200_2_2_1_1_0_0]; exact c2
  · have c2 := contrEquiv1_symm_val dot_S128x200x256_S128x200x256_S128x200x200_2_2_1_1_0_0 256 rfl rfl c
    funext ax; apply Fin.ext
    match ax with
    | ⟨0, _⟩ => simp [DotDims.rhsIdx, dot_S128x200x256_S128x200x256_S128x200x200_2_2_1_1_0_0]; rfl
    | ⟨1, _⟩ => simp [DotDims.rhsIdx, dot_S128x200x256_S128x200x256_S128x200x200_2_2_1_1_0_0]; rfl
    | ⟨2, _⟩ => simp [DotDims.rhsIdx, dot_S128x200x256_S128x200x256_S128x200x200_2_2_1_1_0_0]; exact c2

/-- [128, 200, 200] by [128, 200, 256], jet by jet: the adjacency's rows averaging the hidden states. -/
theorem mix_apply (x : FVec Ideal S128x200x200 .f32) (y : FVec Ideal S128x200x256 .f32) (g : Fin 128) (n : Fin 200) (k : Fin 256) :
    Host.dotGeneral dot_S128x200x200_S128x200x256_S128x200x256_2_1_1_2_0_0 none x y (ix3 g n k)
      = ∑ c : Fin 200, x (ix3 g n c) * y (ix3 g c k) := by
  show FloatOps.dotGeneral dot_S128x200x200_S128x200x256_S128x200x256_2_1_1_2_0_0 none _ x y (ix3 g n k) = _
  refine dotGeneral_apply_of dot_S128x200x200_S128x200x256_S128x200x256_2_1_1_2_0_0 200 rfl rfl none _ x y (ix3 g n k) _ _ (fun c => ?_) (fun c => ?_)
  · have c2 := contrEquiv1_symm_val dot_S128x200x200_S128x200x256_S128x200x256_2_1_1_2_0_0 200 rfl rfl c
    funext ax; apply Fin.ext
    match ax with
    | ⟨0, _⟩ => simp [DotDims.lhsIdx, dot_S128x200x200_S128x200x256_S128x200x256_2_1_1_2_0_0]; rfl
    | ⟨1, _⟩ => simp [DotDims.lhsIdx, dot_S128x200x200_S128x200x256_S128x200x256_2_1_1_2_0_0]; rfl
    | ⟨2, _⟩ => simp [DotDims.lhsIdx, dot_S128x200x200_S128x200x256_S128x200x256_2_1_1_2_0_0]; exact c2
  · have c2 := contrEquiv1_symm_val dot_S128x200x200_S128x200x256_S128x200x256_2_1_1_2_0_0 200 rfl rfl c
    funext ax; apply Fin.ext
    match ax with
    | ⟨0, _⟩ => simp [DotDims.rhsIdx, dot_S128x200x200_S128x200x256_S128x200x256_2_1_1_2_0_0]; rfl
    | ⟨1, _⟩ => simp [DotDims.rhsIdx, dot_S128x200x200_S128x200x256_S128x200x256_2_1_1_2_0_0]; exact c2
    | ⟨2, _⟩ => simp [DotDims.rhsIdx, dot_S128x200x200_S128x200x256_S128x200x256_2_1_1_2_0_0]; rfl

/-- [128, 200, 512] by [512, 256]: the concatenated states times a round's whole weight matrix. -/
theorem wide_apply (x : FVec Ideal S128x200x512 .f32) (y : FVec Ideal S512x256 .f32) (g : Fin 128) (n : Fin 200) (k : Fin 256) :
    Host.dotGeneral dot_S128x200x512_S512x256_S128x200x256_2_0_01_1_n_n none x y (ix3 g n k)
      = ∑ c : Fin 512, x (ix3 g n c) * y (ix2 c k) := by
  show FloatOps.dotGeneral dot_S128x200x512_S512x256_S128x200x256_2_0_01_1_n_n none _ x y (ix3 g n k) = _
  refine dotGeneral_apply_of dot_S128x200x512_S512x256_S128x200x256_2_0_01_1_n_n 512 rfl rfl none _ x y (ix3 g n k) _ _ (fun c => ?_) (fun c => ?_)
  · have c2 := contrEquiv1_symm_val dot_S128x200x512_S512x256_S128x200x256_2_0_01_1_n_n 512 rfl rfl c
    funext ax; apply Fin.ext
    match ax with
    | ⟨0, _⟩ => simp [DotDims.lhsIdx, dot_S128x200x512_S512x256_S128x200x256_2_0_01_1_n_n]; rfl
    | ⟨1, _⟩ => simp [DotDims.lhsIdx, dot_S128x200x512_S512x256_S128x200x256_2_0_01_1_n_n]; rfl
    | ⟨2, _⟩ => simp [DotDims.lhsIdx, dot_S128x200x512_S512x256_S128x200x256_2_0_01_1_n_n]; exact c2
  · have c2 := contrEquiv1_symm_val dot_S128x200x512_S512x256_S128x200x256_2_0_01_1_n_n 512 rfl rfl c
    funext ax; apply Fin.ext
    match ax with
    | ⟨0, _⟩ => simp [DotDims.rhsIdx, dot_S128x200x512_S512x256_S128x200x256_2_0_01_1_n_n]; exact c2
    | ⟨1, _⟩ => simp [DotDims.rhsIdx, dot_S128x200x512_S512x256_S128x200x256_2_0_01_1_n_n]; rfl

/-- [128, 200, 256] by [256, 256]: hidden states times a square weight matrix. -/
theorem dense_apply (x : FVec Ideal S128x200x256 .f32) (y : FVec Ideal S256x256 .f32) (g : Fin 128) (n : Fin 200) (k : Fin 256) :
    Host.dotGeneral dot_S128x200x256_S256x256_S128x200x256_2_0_01_1_n_n none x y (ix3 g n k)
      = ∑ c : Fin 256, x (ix3 g n c) * y (ix2 c k) := by
  show FloatOps.dotGeneral dot_S128x200x256_S256x256_S128x200x256_2_0_01_1_n_n none _ x y (ix3 g n k) = _
  refine dotGeneral_apply_of dot_S128x200x256_S256x256_S128x200x256_2_0_01_1_n_n 256 rfl rfl none _ x y (ix3 g n k) _ _ (fun c => ?_) (fun c => ?_)
  · have c2 := contrEquiv1_symm_val dot_S128x200x256_S256x256_S128x200x256_2_0_01_1_n_n 256 rfl rfl c
    funext ax; apply Fin.ext
    match ax with
    | ⟨0, _⟩ => simp [DotDims.lhsIdx, dot_S128x200x256_S256x256_S128x200x256_2_0_01_1_n_n]; rfl
    | ⟨1, _⟩ => simp [DotDims.lhsIdx, dot_S128x200x256_S256x256_S128x200x256_2_0_01_1_n_n]; rfl
    | ⟨2, _⟩ => simp [DotDims.lhsIdx, dot_S128x200x256_S256x256_S128x200x256_2_0_01_1_n_n]; exact c2
  · have c2 := contrEquiv1_symm_val dot_S128x200x256_S256x256_S128x200x256_2_0_01_1_n_n 256 rfl rfl c
    funext ax; apply Fin.ext
    match ax with
    | ⟨0, _⟩ => simp [DotDims.rhsIdx, dot_S128x200x256_S256x256_S128x200x256_2_0_01_1_n_n]; exact c2
    | ⟨1, _⟩ => simp [DotDims.rhsIdx, dot_S128x200x256_S256x256_S128x200x256_2_0_01_1_n_n]; rfl

end Reference

end Cert.Dots

end
-- ==== Proof.Spec.lean ====
/-
  The network both programs compute, for ONE jet, as plain index-by-index formulas over the extended reals.

  A jet is 200 particles with 8 features each. The embedding `tanh (x W + b)` gives every particle a hidden state of
  width 256. Each of three message-passing rounds forms the soft adjacency of the current states — the row-wise
  softmax of their scaled inner products —, averages the states by it (the messages), and updates every state from
  itself and its message through a 512-by-256 matrix whose upper half multiplies the state and whose lower half the
  message. The readout passes the last states through one more `tanh` layer and a linear layer and sums over the
  particles. The two results are the readout and the soft adjacency of the LAST round.

  Two ways of writing the same numbers meet here and are joined by the two laws at the end: a product with the whole
  512-row matrix is the sum of the two half products (the sum over 512 indices splits into its two halves: only
  associativity and commutativity of the sum), and adding a bias to each of 200 summands is adding it 200 times.
-/
import Idealize.ShloMosaic.PureOps.Ideal.Laws
import Idealize.ShloMosaic.Lib.IdealHost
import Idealize.ShloMosaic.Lib.ValueIdx

noncomputable section

namespace Cert.Spec

open Idealize.ShloMosaic Idealize.ShloMosaic.ValueIdx
open scoped BigOperators

/-! ## Arrays read by coordinates -/

/-- A matrix's entries by row and column. -/
def mat {a b : Nat} (v : (⟨2, ![a, b]⟩ : Shape).Idx → EReal) : Fin a → Fin b → EReal := fun i j => v (ix2 i j)
/-- A vector's entries. -/
def vec {a : Nat} (v : (⟨1, ![a]⟩ : Shape).Idx → EReal) : Fin a → EReal := fun i => v (ix1 i)
/-- Jet `g`'s particles and features out of the stack of all jets. -/
def jetOf {G a b : Nat} (X : (⟨3, ![G, a, b]⟩ : Shape).Idx → EReal) (g : Fin G) : Fin a → Fin b → EReal :=
  fun n f => X (ix3 g n f)

/-! ## The network -/

/-- The scale of the attention logits: the pattern of 1/16 = 1/√256. -/
abbrev scale : EReal := Ideal.ofBits .f32 0x3D800000#32
/-- The pattern of −∞, from which a row's maximum is folded. -/
abbrev negInf : EReal := Ideal.ofBits .f32 0xFF800000#32
/-- The pattern of 200.0: the number of particles. -/
abbrev particles : EReal := Ideal.ofBits .f32 0x43480000#32

/-- One `tanh` layer over `K` inputs: `tanh (x W + b)`. -/
def dense {K : Nat} (x : Fin 200 → Fin K → EReal) (W : Fin K → Fin 256 → EReal) (b : Fin 256 → EReal) :
    Fin 200 → Fin 256 → EReal :=
  fun n k => Ideal.tanh ((∑ c : Fin K, x n c * W c k) + b k)

/-- The attention logits: the scaled inner product of two particles' states. -/
def logits (h : Fin 200 → Fin 256 → EReal) : Fin 200 → Fin 200 → EReal :=
  fun n m => (∑ c : Fin 256, h n c * h m c) * scale

/-- A row's maximum, folded from −∞. -/
def rowMax (l : Fin 200 → Fin 200 → EReal) : Fin 200 → EReal :=
  fun n => (Finset.univ : Finset (Fin 200)).fold max negInf (l n)

/-- The shifted exponentials of a row. -/
def expo (l : Fin 200 → Fin 200 → EReal) : Fin 200 → Fin 200 → EReal :=
  fun n m => Ideal.exp (l n m - rowMax l n)

/-- A row divided by its sum. -/
def normalize (e : Fin 200 → Fin 200 → EReal) : Fin 200 → Fin 200 → EReal :=
  fun n m => Ideal.div (e n m) (∑ j : Fin 200, e n j)

/-- The soft adjacency of the states `h`: the row-wise softmax of their logits. -/
def soft (h : Fin 200 → Fin 256 → EReal) : Fin 200 → Fin 200 → EReal := normalize (expo (logits h))

/-- The messages: the states averaged by an adjacency. -/
def message (a : Fin 200 → Fin 200 → EReal) (h : Fin 200 → Fin 256 → EReal) : Fin 200 → Fin 256 → EReal :=
  fun n k => ∑ m : Fin 200, a n m * h m k

/-- A round's update before its bias: the state through the upper half of the round's matrix plus the message
    through the lower half. -/
def preUpdate (h : Fin 200 → Fin 256 → EReal) (W : Fin 512 → Fin 256 → EReal) : Fin 200 → Fin 256 → EReal :=
  fun n k => (∑ c : Fin 256, h n c * W (Fin.castAdd 256 c) k) + ∑ c : Fin 256, message (soft h) h n c * W (Fin.natAdd 256 c) k

/-- A round's update. -/
def update (h : Fin 200 → Fin 256 → EReal) (W : Fin 512 → Fin 256 → EReal) (b : Fin 256 → EReal) :
    Fin 200 → Fin 256 → EReal :=
  fun n k => Ideal.tanh (preUpdate h W n k + b k)

/-- The readout: the linear layer summed over the particles, its bias added once per particle. -/
def readout (r : Fin 200 → Fin 256 → EReal) (W : Fin 256 → Fin 256 → EReal) (b : Fin 256 → EReal) : Fin 256 → EReal :=
  fun k => (∑ n : Fin 200, ∑ c : Fin 256, r n c * W c k) + particles * b k

/-- The last hidden states of a jet. -/
def lastStates (x : Fin 200 → Fin 8 → EReal) (We : Fin 8 → Fin 256 → EReal) (be : Fin 256 → EReal)
    (W0 : Fin 512 → Fin 256 → EReal) (b0 : Fin 256 → EReal) (W1 : Fin 512 → Fin 256 → EReal) (b1 : Fin 256 → EReal) :
    Fin 200 → Fin 256 → EReal :=
  update (update (dense x We be) W0 b0) W1 b1

/-- The second result for a jet: the soft adjacency of the last round. -/
def attn (x : Fin 200 → Fin 8 → EReal) (We : Fin 8 → Fin 256 → EReal) (be : Fin 256 → EReal)
    (W0 : Fin 512 → Fin 256 → EReal) (b0 : Fin 256 → EReal) (W1 : Fin 512 → Fin 256 → EReal) (b1 : Fin 256 → EReal) :
    Fin 200 → Fin 200 → EReal :=
  soft (lastStates x We be W0 b0 W1 b1)

/-- The first result for a jet: the readout of the states after the third round. -/
def out (x : Fin 200 → Fin 8 → EReal) (We : Fin 8 → Fin 256 → EReal) (be : Fin 256 → EReal)
    (W0 : Fin 512 → Fin 256 → EReal) (b0 : Fin 256 → EReal) (W1 : Fin 512 → Fin 256 → EReal) (b1 : Fin 256 → EReal)
    (W2 : Fin 512 → Fin 256 → EReal) (b2 : Fin 256 → EReal) (Wr1 : Fin 256 → Fin 256 → EReal) (br1 : Fin 256 → EReal)
    (Wr2 : Fin 256 → Fin 256 → EReal) (br2 : Fin 256 → EReal) : Fin 256 → EReal :=
  readout (dense (update (lastStates x We be W0 b0 W1 b1) W2 b2) Wr1 br1) Wr2 br2

/-! ## The two laws -/

/-- A sum over 512 indices is the sum over the first 256 plus the sum over the last 256. -/
theorem sum_halves (f : Fin 512 → EReal) :
    ∑ j : Fin 512, f j = (∑ c : Fin 256, f (Fin.castAdd 256 c)) + ∑ c : Fin 256, f (Fin.natAdd 256 c) :=
  Fin.sum_univ_add (M := EReal) (a := 256) (b := 256) f

/-- The pattern `0x43480000` is the real 200. -/
theorem particles_eq : particles = ((200 : ℝ) : EReal) := by
  simp [particles, Ideal.ofBits, Ideal.ieee, -EReal.coe_mul]; norm_num

/-- Two hundred copies of an extended real add up to 200 times it (at the infinities too). -/
theorem nsmul_particles (b : EReal) : (200 : ℕ) • b = particles * b := by
  rw [particles_eq, EReal.nsmul_eq_mul]
  congr 1

/-- Adding the bias to each of the 200 summands adds it 200 times: the reference's readout is the kernel's. -/
theorem sum_add_bias (a : Fin 200 → EReal) (b : EReal) : ∑ n : Fin 200, (a n + b) = (∑ n : Fin 200, a n) + particles * b := by
  rw [Finset.sum_add_distrib, Finset.sum_const, Finset.card_univ, Fintype.card_fin, nsmul_particles]

end Cert.Spec

end
-- ==== Proof.KernelValue.lean ====
/-
  What one grid point of the kernel computes IS the network of Spec.lean, entry by entry.

  The body's values are read at an index through the operations' readings (KernelOps.lean) and the matrix products as
  sums (DotRecords.lean): the embedding layer and the first round give the states after round one; the second round
  starts from those states, their logits and the logits' row maxima, which the body carries as three separate values;
  the third round's update is carried without its bias and its `tanh`, which the readout applies first. The soft
  adjacency stored as the second result is that of the states after round two.
-/
import proofs.«131165_g85813446574462_cont_9to1c4b_288_5_alg».proof.Proof.Gen.KernelIdeal.Skeleton
import proofs.«131165_g85813446574462_cont_9to1c4b_288_5_alg».proof.Proof.KernelMember
import proofs.«131165_g85813446574462_cont_9to1c4b_288_5_alg».proof.Proof.KernelOps
import proofs.«131165_g85813446574462_cont_9to1c4b_288_5_alg».proof.Proof.DotRecords
import proofs.«131165_g85813446574462_cont_9to1c4b_288_5_alg».proof.Proof.Spec
import Idealize.ShloMosaic.Lib.ValueLayout

noncomputable section

namespace Cert.KernelValue

open Idealize.ShloMosaic Idealize.ShloMosaic.ValueIdx Cert.KernelIdeal Cert.KernelIdeal.Gen Cert.KernelIdeal.Member
open Cert.Spec Cert.KernelOps Cert.Dots.Kernel
open scoped BigOperators

/-- Every operation of the body but the reductions, read at an index (a row's maximum or sum at the fixed row `n`
    mentions no summation variable, and is read apart). -/
local macro "read_ops" : tactic =>
  `(tactic| simp only [tanh_apply, addf_apply, mulf_apply, subf_apply, divf_apply, exp_apply, broadcast_apply, embed_apply, gram_apply,
    mix_apply, dense_apply, upperHalf_apply, lowerHalf_apply, biasRow_apply, column_apply, jetRows_apply, asOutBlock_apply,
    asRow_apply, broadcastTo_1b_ab_apply, shapeCast_self])
/-- The same with further facts about the values at hand. -/
local macro "read_ops" "[" hs:Lean.Parser.Tactic.simpLemma,* "]" : tactic =>
  `(tactic| simp only [tanh_apply, addf_apply, mulf_apply, subf_apply, divf_apply, exp_apply, broadcast_apply, embed_apply, gram_apply,
    mix_apply, dense_apply, upperHalf_apply, lowerHalf_apply, biasRow_apply, column_apply, jetRows_apply, asOutBlock_apply,
    asRow_apply, broadcastTo_1b_ab_apply, shapeCast_self, $hs,*])

/-- A jet's block by particle and feature. -/
def jetMat (x : FVec Ideal S1x200x8 .f32) : Fin 200 → Fin 8 → EReal := fun n f => x (ix3 (0 : Fin 1) n f)
/-- A one-row matrix's row. -/
def rowOf (b : FVec Ideal S1x256 .f32) : Fin 256 → EReal := fun k => b (ix2 (0 : Fin 1) k)

/-- The states after round one: the embedding, then one update. -/
theorem statesOne_apply (x : FVec Ideal S1x200x8 .f32) (We : FVec Ideal S8x256 .f32) (be : FVec Ideal S1x256 .f32)
    (W0 : FVec Ideal S512x256 .f32) (b0 : FVec Ideal S1x256 .f32) (n : Fin 200) (k : Fin 256) :
    k0_pay3 (F := Ideal) x We be W0 b0 (ix2 n k) = update (dense (jetMat x) (mat We) (rowOf be)) (mat W0) (rowOf b0) n k := by
  unfold k0_pay3
  read_ops
  rw [rowSum_apply]
  read_ops
  rw [rowMax_apply]
  read_ops
  rfl

/-- Their logits. -/
theorem logitsOne_apply (x : FVec Ideal S1x200x8 .f32) (We : FVec Ideal S8x256 .f32) (be : FVec Ideal S1x256 .f32)
    (W0 : FVec Ideal S512x256 .f32) (b0 : FVec Ideal S1x256 .f32) (n m : Fin 200) :
    k0_pay4 (F := Ideal) x We be W0 b0 (ix2 n m) = logits (mat (k0_pay3 (F := Ideal) x We be W0 b0)) n m := by
  unfold k0_pay4
  read_ops
  rfl

/-- The logits' row maxima. -/
theorem maxOne_apply (x : FVec Ideal S1x200x8 .f32) (We : FVec Ideal S8x256 .f32) (be : FVec Ideal S1x256 .f32)
    (W0 : FVec Ideal S512x256 .f32) (b0 : FVec Ideal S1x256 .f32) (n : Fin 200) :
    k0_pay5 (F := Ideal) x We be W0 b0 (ix1 n) = rowMax (mat (k0_pay4 (F := Ideal) x We be W0 b0)) n := by
  unfold k0_pay5
  exact rowMax_apply _ _ _ _ n

section RoundTwo
variable (h : FVec Ideal S200x256 .f32) (l : FVec Ideal S200x200 .f32) (mx : FVec Ideal S200 .f32)
  (W : FVec Ideal S512x256 .f32) (b : FVec Ideal S1x256 .f32)
  (hl : ∀ n m, l (ix2 n m) = logits (mat h) n m) (hm : ∀ n, mx (ix1 n) = rowMax (logits (mat h)) n)
include hl hm

/-- The states after another round, from states `h`, their logits `l` and the logits' row maxima `mx`. -/
theorem statesNext_apply (n : Fin 200) (k : Fin 256) :
    k0_pay6 (F := Ideal) h l mx W b (ix2 n k) = update (mat h) (mat W) (rowOf b) n k := by
  unfold k0_pay6
  read_ops [hl, hm]
  rw [rowSum_apply]
  read_ops [hl, hm]
  rfl

/-- The soft adjacency of those next states. -/
theorem softNext_apply (n m : Fin 200) :
    k0_pay7 (F := Ideal) h l mx W b (ix2 n m) = soft (update (mat h) (mat W) (rowOf b)) n m := by
  unfold k0_pay7
  read_ops [statesNext_apply h l mx W b hl hm]
  rw [rowSum_apply]
  read_ops [statesNext_apply h l mx W b hl hm]
  rw [rowMax_apply]
  read_ops [statesNext_apply h l mx W b hl hm]
  rfl

/-- The round after that, before its bias. -/
theorem preNext_apply (W2 : FVec Ideal S512x256 .f32) (n : Fin 200) (k : Fin 256) :
    k0_pay8 (F := Ideal) h l mx W b W2 (ix2 n k) = preUpdate (update (mat h) (mat W) (rowOf b)) (mat W2) n k := by
  unfold k0_pay8
  read_ops [statesNext_apply h l mx W b hl hm, softNext_apply h l mx W b hl hm]
  rfl

end RoundTwo

/-- The readout, from a round's update before its bias `p` and that bias `b`. -/
theorem readout_apply (p : FVec Ideal S200x256 .f32) (b : FVec Ideal S1x256 .f32) (Wr1 : FVec Ideal S256x256 .f32)
    (br1 : FVec Ideal S1x256 .f32) (Wr2 : FVec Ideal S256x256 .f32) (br2 : FVec Ideal S1x256 .f32) (k : Fin 256) :
    k0_pay1 (F := Ideal) p b Wr1 br1 Wr2 br2 (ix3 (0 : Fin 1) (0 : Fin 1) k)
      = readout (dense (fun n c => Ideal.tanh (p (ix2 n c) + b (ix2 (0 : Fin 1) c))) (mat Wr1) (rowOf br1)) (mat Wr2) (rowOf br2) k := by
  unfold k0_pay1
  read_ops
  rw [colSum_apply]
  read_ops
  rfl

/-- The second result's block for a jet is the network's soft adjacency of the last round. -/
theorem attnBlock_apply (x : FVec Ideal S1x200x8 .f32) (We : FVec Ideal S8x256 .f32) (be : FVec Ideal S1x256 .f32)
    (W0 : FVec Ideal S512x256 .f32) (b0 : FVec Ideal S1x256 .f32) (W1 : FVec Ideal S512x256 .f32) (b1 : FVec Ideal S1x256 .f32)
    (n m : Fin 200) :
    attnBlock x We be W0 b0 W1 b1 (ix3 (0 : Fin 1) n m)
      = attn (jetMat x) (mat We) (rowOf be) (mat W0) (rowOf b0) (mat W1) (rowOf b1) n m := by
  have e3 : mat (k0_pay3 (F := Ideal) x We be W0 b0) = update (dense (jetMat x) (mat We) (rowOf be)) (mat W0) (rowOf b0) :=
    funext fun a => funext fun c => statesOne_apply x We be W0 b0 a c
  have e4 : mat (k0_pay4 (F := Ideal) x We be W0 b0) = logits (mat (k0_pay3 (F := Ideal) x We be W0 b0)) :=
    funext fun a => funext fun c => logitsOne_apply x We be W0 b0 a c
  unfold attnBlock k0_pay2
  rw [asAttnBlock_apply, softNext_apply _ _ _ W1 b1 (logitsOne_apply x We be W0 b0)
    (fun a => (maxOne_apply x We be W0 b0 a).trans (by rw [e4])), e3]
  rfl

/-- The first result's block for a jet is the network's readout. -/
theorem outBlock_apply (x : FVec Ideal S1x200x8 .f32) (We : FVec Ideal S8x256 .f32) (be : FVec Ideal S1x256 .f32)
    (W0 : FVec Ideal S512x256 .f32) (b0 : FVec Ideal S1x256 .f32) (W1 : FVec Ideal S512x256 .f32) (b1 : FVec Ideal S1x256 .f32)
    (W2 : FVec Ideal S512x256 .f32) (b2 : FVec Ideal S1x256 .f32) (Wr1 : FVec Ideal S256x256 .f32) (br1 : FVec Ideal S1x256 .f32)
    (Wr2 : FVec Ideal S256x256 .f32) (br2 : FVec Ideal S1x256 .f32) (k : Fin 256) :
    outBlock x We be W0 b0 W1 b1 W2 b2 Wr1 br1 Wr2 br2 (ix3 (0 : Fin 1) (0 : Fin 1) k)
      = out (jetMat x) (mat We) (rowOf be) (mat W0) (rowOf b0) (mat W1) (rowOf b1) (mat W2) (rowOf b2) (mat Wr1) (rowOf br1)
          (mat Wr2) (rowOf br2) k := by
  have e3 : mat (k0_pay3 (F := Ideal) x We be W0 b0) = update (dense (jetMat x) (mat We) (rowOf be)) (mat W0) (rowOf b0) :=
    funext fun a => funext fun c => statesOne_apply x We be W0 b0 a c
  have e4 : mat (k0_pay4 (F := Ideal) x We be W0 b0) = logits (mat (k0_pay3 (F := Ideal) x We be W0 b0)) :=
    funext fun a => funext fun c => logitsOne_apply x We be W0 b0 a c
  have e9 : ∀ c : Fin 256, k0_pay9 (F := Ideal) b2 (ix2 (0 : Fin 1) c) = rowOf b2 c := fun c => by
    unfold k0_pay9; rw [shapeCast_self]; rfl
  have e8 : (fun (a : Fin 200) (c : Fin 256) =>
        Ideal.tanh (k0_pay8 (F := Ideal) (k0_pay3 (F := Ideal) x We be W0 b0) (k0_pay4 (F := Ideal) x We be W0 b0) (k0_pay5 (F := Ideal) x We be W0 b0) W1 b1 W2 (ix2 a c)
          + k0_pay9 (F := Ideal) b2 (ix2 (0 : Fin 1) c)))
      = update (lastStates (jetMat x) (mat We) (rowOf be) (mat W0) (rowOf b0) (mat W1) (rowOf b1)) (mat W2) (rowOf b2) := by
    funext a c
    rw [preNext_apply _ _ _ W1 b1 (logitsOne_apply x We be W0 b0)
      (fun a => (maxOne_apply x We be W0 b0 a).trans (by rw [e4])) W2 a c, e9 c, e3]
    rfl
  unfold outBlock
  rw [readout_apply, e8]
  rfl

/-- The second result: jet `g`'s rows hold the network's soft adjacency of jet `g`. -/
theorem attnArr_apply (jets : FVec Ideal S128x200x8 .f32) (We : FVec Ideal S8x256 .f32) (be : FVec Ideal S256 .f32)
    (W0 : FVec Ideal S512x256 .f32) (b0 : FVec Ideal S256 .f32) (W1 : FVec Ideal S512x256 .f32) (b1 : FVec Ideal S256 .f32)
    (g : Fin 128) (n m : Fin 200) :
    attnArr jets We be W0 b0 W1 b1 (ix3 g n m)
      = attn (jetOf jets g) (mat We) (vec be) (mat W0) (vec b0) (mat W1) (vec b1) n m := by
  have er : ∀ v : FVec Ideal S256 .f32, rowOf (biasRow v) = vec v := fun v =>
    funext fun c => asRow_apply v _ c
  show attnBlock (jetBlock jets g) We (biasRow be) W0 (biasRow b0) W1 (biasRow b1) (ix3 (0 : Fin 1) n m) = _
  rw [attnBlock_apply, er, er, er]
  rfl

/-- The first result: row `g` holds the network's readout of jet `g`. -/
theorem outArr_apply (jets : FVec Ideal S128x200x8 .f32) (We : FVec Ideal S8x256 .f32) (be : FVec Ideal S256 .f32)
    (W0 : FVec Ideal S512x256 .f32) (b0 : FVec Ideal S256 .f32) (W1 : FVec Ideal S512x256 .f32) (b1 : FVec Ideal S256 .f32)
    (W2 : FVec Ideal S512x256 .f32) (b2 : FVec Ideal S256 .f32) (Wr1 : FVec Ideal S256x256 .f32) (br1 : FVec Ideal S256 .f32)
    (Wr2 : FVec Ideal S256x256 .f32) (br2 : FVec Ideal S256 .f32) (g : Fin 128) (k : Fin 256) :
    outArr jets We be W0 b0 W1 b1 W2 b2 Wr1 br1 Wr2 br2 (ix2 g k)
      = out (jetOf jets g) (mat We) (vec be) (mat W0) (vec b0) (mat W1) (vec b1) (mat W2) (vec b2) (mat Wr1) (vec br1)
          (mat Wr2) (vec br2) k := by
  have er : ∀ v : FVec Ideal S256 .f32, rowOf (biasRow v) = vec v := fun v =>
    funext fun c => asRow_apply v _ c
  show outBlock (jetBlock jets g) We (biasRow be) W0 (biasRow b0) W1 (biasRow b1) W2 (biasRow b2) Wr1 (biasRow br1) Wr2
    (biasRow br2) (ix3 (0 : Fin 1) (0 : Fin 1) k) = _
  rw [outBlock_apply, er, er, er, er, er, er]
  rfl

end Cert.KernelValue

end
-- ==== Proof.RefOps.lean ====
/-
  The reference's operations read at one index, at the ideal values.

  The reference works on all 128 jets at once: arrays [128, 200, 256] and [128, 200, 200]. A bias [256] is broadcast
  in two steps to every jet and particle; a row statistic [128, 200] (a maximum or a sum over the last axis) is
  broadcast back along that axis in two steps; a scalar constant is broadcast everywhere; the states and the messages
  are concatenated along the hidden axis into width 512. Each lemma names the entry an operation's result holds at
  (g, n, k) in terms of its operands' entries.
-/
import proofs.«131165_g85813446574462_cont_9to1c4b_288_5_alg».proof.Proof.Gen.ReferenceIdeal
import Idealize.ShloMosaic.Lib.ValueIdx
import Idealize.ShloMosaic.Lib.IdealHost
import Idealize.ShloMosaic.Lib.Pipeline.Value
import Idealize.ShloMosaic.PureOps.Ideal.Laws

noncomputable section

namespace Cert.RefOps

open Idealize.ShloMosaic Idealize.ShloMosaic.ValueIdx Cert.ReferenceIdeal
open scoped BigOperators

/-- The host's `tanh` of an array, at an index. -/
theorem tanh_apply {s : Shape} (x : FVec Ideal s .f32) (i : s.Idx) : Host.tanh x i = Ideal.tanh (x i) := rfl
/-- The host's `exp` of an array, at an index. -/
theorem exp_apply {s : Shape} (x : FVec Ideal s .f32) (i : s.Idx) : Host.exp x i = Ideal.exp (x i) := rfl

/-- A scalar constant broadcast to any shape reads the constant's value. -/
theorem splat_apply {T : Shape} (w : BitVec 32) (h : S_.BroadcastsInDim T ![]) (i : T.Idx) :
    broadcastInDim T ![] h (constant (F := Ideal) S_ .f32 w) i = Ideal.ofBits .f32 w :=
  broadcastInDim_scalar_apply h _ i

/-- A bias broadcast to every jet and particle reads the bias at the hidden coordinate. -/
theorem bias_apply (b : FVec Ideal S256 .f32) (h1 : S256.BroadcastsInDim S1x1x256 ![2])
    (h2 : S1x1x256.BroadcastsInDim S128x200x256 ![0, 1, 2]) (g : Fin 128) (n : Fin 200) (k : Fin 256) :
    broadcastInDim S128x200x256 ![0, 1, 2] h2 (broadcastInDim S1x1x256 ![2] h1 b) (ix3 g n k) = b (ix1 k) := by
  refine (broadcastInDim_apply ![0, 1, 2] h2 _ (ix3 g n k) (ix3 (0 : Fin 1) (0 : Fin 1) k) (fun a => ?_)).trans ?_
  · match a with
    | ⟨0, _⟩ => rfl
    | ⟨1, _⟩ => rfl
    | ⟨2, _⟩ => rfl
  · refine broadcastInDim_apply ![2] h1 b (ix3 (0 : Fin 1) (0 : Fin 1) k) (ix1 k) (fun a => ?_)
    match a with
    | ⟨0, _⟩ => rfl

/-- A row statistic broadcast back along the row reads the statistic of the jet's row. -/
theorem column_apply (v : FVec Ideal S128x200 .f32) (h1 : S128x200.BroadcastsInDim S128x200x1 ![0, 1])
    (h2 : S128x200x1.BroadcastsInDim S128x200x200 ![0, 1, 2]) (g : Fin 128) (n m : Fin 200) :
    broadcastInDim S128x200x200 ![0, 1, 2] h2 (broadcastInDim S128x200x1 ![0, 1] h1 v) (ix3 g n m) = v (ix2 g n) := by
  refine (broadcastInDim_apply ![0, 1, 2] h2 _ (ix3 g n m) (ix3 g n (0 : Fin 1)) (fun a => ?_)).trans ?_
  · match a with
    | ⟨0, _⟩ => rfl
    | ⟨1, _⟩ => rfl
    | ⟨2, _⟩ => rfl
  · refine broadcastInDim_apply ![0, 1] h1 v (ix3 g n (0 : Fin 1)) (ix2 g n) (fun a => ?_)
    match a with
    | ⟨0, _⟩ => rfl
    | ⟨1, _⟩ => rfl

/-- A row's maximum on the host: the fold of `max` from the initial value over the row. -/
theorem rowMax_apply (L : FVec Ideal S128x200x200 .f32) (w : BitVec 32) (h' : S128x200x200.ReducesTo [2] S128x200)
    (hu : 0 < S_.numel) (g : Fin 128) (n : Fin 200) :
    Host.reduce FloatOps.maximumf L (constant (F := Ideal) S_ .f32 w) h' hu (ix2 g n)
      = (Finset.univ : Finset (Fin 200)).fold max (Ideal.ofBits .f32 w) (fun m => L (ix3 g n m)) := by
  have h : S128x200x200.Reduces [2] S128x200 := ⟨h'.1, Nat.two_pos, h'.2⟩
  refine (Host.reduce_eq_fold_single FloatOps.maximumf L _ h' h hu (ix2 g n)).trans ?_
  show (Finset.univ : Finset (Fin 200)).fold max (Ideal.ofBits .f32 w) (L ∘ h.lift (ix2 g n)) = _
  refine Finset.fold_congr fun m _ => congrArg L (funext fun ax => Fin.ext ?_)
  match ax with
  | ⟨0, _⟩ => rfl
  | ⟨1, _⟩ => rfl
  | ⟨2, _⟩ => rfl

/-- A row's sum on the host, from a zero initial value. -/
theorem rowSum_apply (E : FVec Ideal S128x200x200 .f32) (h' : S128x200x200.ReducesTo [2] S128x200) (hu : 0 < S_.numel)
    (g : Fin 128) (n : Fin 200) :
    Host.reduceAdd E (constant (F := Ideal) S_ .f32 0x00000000#32) h' hu (ix2 g n) = ∑ m : Fin 200, E (ix3 g n m) := by
  have h : S128x200x200.Reduces [2] S128x200 := ⟨h'.1, Nat.two_pos, h'.2⟩
  show Ideal.hostReduceAdd h' E (Ideal.ofBits .f32 0x00000000#32) (ix2 g n) = _
  rw [Ideal.hostReduceAdd_single h' h, Ideal.ofBits_zero_f32, zero_add]
  refine Finset.sum_congr rfl fun m _ => congrArg E (funext fun ax => Fin.ext ?_)
  match ax with
  | ⟨0, _⟩ => rfl
  | ⟨1, _⟩ => rfl
  | ⟨2, _⟩ => rfl

/-- The sum over a jet's particles on the host, from a zero initial value. -/
theorem particleSum_apply (Y : FVec Ideal S128x200x256 .f32) (h' : S128x200x256.ReducesTo [1] S128x256) (hu : 0 < S_.numel)
    (g : Fin 128) (k : Fin 256) :
    Host.reduceAdd Y (constant (F := Ideal) S_ .f32 0x00000000#32) h' hu (ix2 g k) = ∑ n : Fin 200, Y (ix3 g n k) := by
  have h : S128x200x256.Reduces [1] S128x256 := ⟨h'.1, Nat.two_pos, h'.2⟩
  show Ideal.hostReduceAdd h' Y (Ideal.ofBits .f32 0x00000000#32) (ix2 g k) = _
  rw [Ideal.hostReduceAdd_single h' h, Ideal.ofBits_zero_f32, zero_add]
  refine Finset.sum_congr rfl fun n _ => congrArg Y (funext fun ax => Fin.ext ?_)
  match ax with
  | ⟨0, _⟩ => rfl
  | ⟨1, _⟩ => rfl
  | ⟨2, _⟩ => rfl

/-- The states and the messages side by side: the first 256 hidden coordinates read the states. -/
theorem concat_left_apply (A B : FVec Ideal S128x200x256 .f32)
    (h : Shape.Concatenates [S128x200x256, S128x200x256] S128x200x512 2) (g : Fin 128) (n : Fin 200) (c : Fin 256) :
    concatenate S128x200x512 2 [⟨S128x200x256, A⟩, ⟨S128x200x256, B⟩] h (ix3 g n (Fin.castAdd 256 c : Fin 512)) = A (ix3 g n c) := by
  refine concatenate_pair_apply_left (2 : Fin 3) A B h (ix3 g n (Fin.castAdd 256 c : Fin 512)) rfl (ix3 g n c) (fun b => ?_)
  match b with
  | ⟨0, _⟩ => rfl
  | ⟨1, _⟩ => rfl
  | ⟨2, _⟩ => rfl

/-- … and the last 256 read the messages. -/
theorem concat_right_apply (A B : FVec Ideal S128x200x256 .f32)
    (h : Shape.Concatenates [S128x200x256, S128x200x256] S128x200x512 2) (g : Fin 128) (n : Fin 200) (c : Fin 256) :
    concatenate S128x200x512 2 [⟨S128x200x256, A⟩, ⟨S128x200x256, B⟩] h (ix3 g n (Fin.natAdd 256 c : Fin 512)) = B (ix3 g n c) := by
  refine concatenate_pair_apply_right (2 : Fin 3) A B h (ix3 g n (Fin.natAdd 256 c : Fin 512)) rfl rfl (ix3 g n c) (fun b hb => ?_) ?_
  · match b with
    | ⟨0, _⟩ => rfl
    | ⟨1, _⟩ => rfl
    | ⟨2, _⟩ => exact absurd rfl hb
  · show c.val + 256 = 256 + c.val
    omega

end Cert.RefOps

end
-- ==== Proof.RefValue.lean ====
/-
  What the reference computes at jet `g` IS the network of Spec.lean, entry by entry.

  The reference's run names its intermediate arrays (the states after the embedding and after each round, each
  round's logits and their shifted exponentials). Each kind of stage is read at an index once, for arbitrary arrays —
  a `tanh` layer, the logits, the shifted exponentials, the normalization, a round's update — and the named stages
  follow one after the other. Two laws enter: the product of the concatenated states and messages with a round's whole
  matrix is the sum of the two half products, and the readout's bias, added to each of the 200 particles' rows before
  the sum, is 200 times the bias after it.
-/
import proofs.«131165_g85813446574462_cont_9to1c4b_288_5_alg».proof.Proof.RefList
import proofs.«131165_g85813446574462_cont_9to1c4b_288_5_alg».proof.Proof.RefOps
import proofs.«131165_g85813446574462_cont_9to1c4b_288_5_alg».proof.Proof.DotRecords
import proofs.«131165_g85813446574462_cont_9to1c4b_288_5_alg».proof.Proof.Spec
import Mathlib.Data.Finset.Fold

noncomputable section

namespace Cert.RefValue

open Idealize.ShloMosaic Idealize.ShloMosaic.ValueIdx Idealize.ShloMosaic.TcCoe Idealize.ShloMosaic.StableHlo
open Cert.ReferenceIdeal Cert.ReferenceIdeal.Gen Cert.ReferenceIdeal.RefRun
open Cert.Spec Cert.RefOps Cert.Dots.Reference
open scoped BigOperators

/-- Folding `max` from a value and then taking the maximum with that value again changes nothing. -/
theorem max_fold_self (b : EReal) (f : Fin 200 → EReal) :
    max b ((Finset.univ : Finset (Fin 200)).fold max b f) = (Finset.univ : Finset (Fin 200)).fold max b f :=
  max_eq_right ((Finset.le_fold_max b).mpr (Or.inl le_rfl))

/-! ## The kinds of stage, for arbitrary arrays -/

/-- The embedding layer over all jets. -/
theorem embed_stage (X : FVec Ideal S128x200x8 .f32) (W : FVec Ideal S8x256 .f32) (b : FVec Ideal S256 .f32)
    (g : Fin 128) (n : Fin 200) (k : Fin 256) :
    Host.tanh (addf (Host.dotGeneral dot_S128x200x8_S8x256_S128x200x256_2_0_01_1_n_n none X W)
      (broadcastInDim S128x200x256 ![0, 1, 2] bcast_S1x1x256_S128x200x256_0_1_2 (broadcastInDim S1x1x256 ![2] bcast_S256_S1x1x256_2 b)))
      (ix3 g n k) = dense (jetOf X g) (mat W) (vec b) n k := by
  rw [tanh_apply, addf_apply, embed_apply, bias_apply]
  rfl

/-- A `tanh` layer of width 256 over all jets. -/
theorem dense_stage (H : FVec Ideal S128x200x256 .f32) (W : FVec Ideal S256x256 .f32) (b : FVec Ideal S256 .f32)
    (g : Fin 128) (n : Fin 200) (k : Fin 256) :
    Host.tanh (addf (Host.dotGeneral dot_S128x200x256_S256x256_S128x200x256_2_0_01_1_n_n none H W)
      (broadcastInDim S128x200x256 ![0, 1, 2] bcast_S1x1x256_S128x200x256_0_1_2 (broadcastInDim S1x1x256 ![2] bcast_S256_S1x1x256_2 b)))
      (ix3 g n k) = dense (jetOf H g) (mat W) (vec b) n k := by
  rw [tanh_apply, addf_apply, dense_apply, bias_apply]
  rfl

/-- The logits of all jets' states. -/
theorem logits_stage (H : FVec Ideal S128x200x256 .f32) (g : Fin 128) (n m : Fin 200) :
    mulf (Host.dotGeneral dot_S128x200x256_S128x200x256_S128x200x200_2_2_1_1_0_0 none H H)
      (broadcastInDim S128x200x200 ![] bcast_S_S128x200x200 (constant S_ .f32 0x3D800000#32)) (ix3 g n m)
      = logits (jetOf H g) n m := by
  rw [mulf_apply, gram_apply, splat_apply]
  rfl

/-- The shifted exponentials of all jets' logits (the maximum is taken once more against −∞, which changes nothing). -/
theorem expo_stage (L : FVec Ideal S128x200x200 .f32) (g : Fin 128) (n m : Fin 200) :
    Host.exp (subf L (broadcastInDim S128x200x200 ![0, 1, 2] bcast_S128x200x1_S128x200x200_0_1_2
      (broadcastInDim S128x200x1 ![0, 1] bcast_S128x200_S128x200x1_0_1
        (maximumf (broadcastInDim S128x200 ![] bcast_S_S128x200 (constant S_ .f32 0xFF800000#32))
          (Host.reduce FloatOps.maximumf L (constant S_ .f32 0xFF800000#32) reducesTo_S128x200x200_S128x200_d2 h_S_)))))
      (ix3 g n m) = expo (jetOf L g) n m := by
  rw [exp_apply, subf_apply, column_apply, maximumf_apply, splat_apply, rowMax_apply, max_fold_self]
  rfl

/-- Each row divided by its sum. -/
theorem normalize_stage (E : FVec Ideal S128x200x200 .f32) (g : Fin 128) (n m : Fin 200) :
    Host.divf E (broadcastInDim S128x200x200 ![0, 1, 2] bcast_S128x200x1_S128x200x200_0_1_2
      (broadcastInDim S128x200x1 ![0, 1] bcast_S128x200_S128x200x1_0_1
        (Host.reduceAdd E (constant S_ .f32 0x00000000#32) reducesTo_S128x200x200_S128x200_d2 h_S_))) (ix3 g n m)
      = normalize (jetOf E g) n m := by
  rw [hostDivf_apply, column_apply, rowSum_apply]
  rfl

/-- A round's update before its bias, from the states `H` and the shifted exponentials `E` of their logits: the
    product of the concatenated states and messages with the whole matrix is the sum of the two half products. -/
theorem preUpdate_stage (H : FVec Ideal S128x200x256 .f32) (E : FVec Ideal S128x200x200 .f32) (W : FVec Ideal S512x256 .f32)
    (hE : ∀ g n m, E (ix3 g n m) = expo (logits (jetOf H g)) n m) (g : Fin 128) (n : Fin 200) (k : Fin 256) :
    Host.dotGeneral dot_S128x200x512_S512x256_S128x200x256_2_0_01_1_n_n none
      (concatenate S128x200x512 2 [⟨S128x200x256, H⟩, ⟨S128x200x256,
        Host.dotGeneral dot_S128x200x200_S128x200x256_S128x200x256_2_1_1_2_0_0 none
          (Host.divf E (broadcastInDim S128x200x200 ![0, 1, 2] bcast_S128x200x1_S128x200x200_0_1_2
            (broadcastInDim S128x200x1 ![0, 1] bcast_S128x200_S128x200x1_0_1
              (Host.reduceAdd E (constant S_ .f32 0x00000000#32) reducesTo_S128x200x200_S128x200_d2 h_S_)))) H⟩]
        concatenates_S128x200x256_S128x200x256_S128x200x512_d2) W (ix3 g n k)
      = preUpdate (jetOf H g) (mat W) n k := by
  have hA : ∀ a c, Host.divf E (broadcastInDim S128x200x200 ![0, 1, 2] bcast_S128x200x1_S128x200x200_0_1_2
        (broadcastInDim S128x200x1 ![0, 1] bcast_S128x200_S128x200x1_0_1
          (Host.reduceAdd E (constant S_ .f32 0x00000000#32) reducesTo_S128x200x200_S128x200_d2 h_S_))) (ix3 g a c)
      = soft (jetOf H g) a c := fun a c => by
    rw [normalize_stage E g a c, show jetOf E g = expo (logits (jetOf H g)) from funext fun a => funext fun c => hE g a c]
    rfl
  rw [wide_apply, sum_halves]
  unfold preUpdate message
  refine congrArg₂ (· + ·) (Finset.sum_congr rfl fun c _ => ?_) (Finset.sum_congr rfl fun c _ => ?_)
  · show concatenate S128x200x512 2 _ _ (ix3 g n (Fin.castAdd 256 c : Fin 512)) * W (ix2 (Fin.castAdd 256 c : Fin 512) k) = _
    rw [concat_left_apply]
    rfl
  · show concatenate S128x200x512 2 _ _ (ix3 g n (Fin.natAdd 256 c : Fin 512)) * W (ix2 (Fin.natAdd 256 c : Fin 512) k) = _
    rw [concat_right_apply, mix_apply]
    refine congrArg (· * W (ix2 (Fin.natAdd 256 c : Fin 512) k)) (Finset.sum_congr rfl fun a _ => ?_)
    rw [hA]
    rfl

/-- A round's update. -/
theorem update_stage (H : FVec Ideal S128x200x256 .f32) (E : FVec Ideal S128x200x200 .f32) (W : FVec Ideal S512x256 .f32)
    (b : FVec Ideal S256 .f32) (hE : ∀ g n m, E (ix3 g n m) = expo (logits (jetOf H g)) n m)
    (g : Fin 128) (n : Fin 200) (k : Fin 256) :
    Host.tanh (addf (Host.dotGeneral dot_S128x200x512_S512x256_S128x200x256_2_0_01_1_n_n none
      (concatenate S128x200x512 2 [⟨S128x200x256, H⟩, ⟨S128x200x256,
        Host.dotGeneral dot_S128x200x200_S128x200x256_S128x200x256_2_1_1_2_0_0 none
          (Host.divf E (broadcastInDim S128x200x200 ![0, 1, 2] bcast_S128x200x1_S128x200x200_0_1_2
            (broadcastInDim S128x200x1 ![0, 1] bcast_S128x200_S128x200x1_0_1
              (Host.reduceAdd E (constant S_ .f32 0x00000000#32) reducesTo_S128x200x200_S128x200_d2 h_S_)))) H⟩]
        concatenates_S128x200x256_S128x200x256_S128x200x512_d2) W)
      (broadcastInDim S128x200x256 ![0, 1, 2] bcast_S1x1x256_S128x200x256_0_1_2 (broadcastInDim S1x1x256 ![2] bcast_S256_S1x1x256_2 b)))
      (ix3 g n k) = update (jetOf H g) (mat W) (vec b) n k := by
  rw [tanh_apply, addf_apply, preUpdate_stage H E W hE g n k, bias_apply]
  rfl

/-- A `tanh` layer of width 256, jet by jet. -/
theorem dense_jet (H : FVec Ideal S128x200x256 .f32) (W : FVec Ideal S256x256 .f32) (b : FVec Ideal S256 .f32) (g : Fin 128) :
    jetOf (Host.tanh (addf (Host.dotGeneral dot_S128x200x256_S256x256_S128x200x256_2_0_01_1_n_n none H W)
      (broadcastInDim S128x200x256 ![0, 1, 2] bcast_S1x1x256_S128x200x256_0_1_2 (broadcastInDim S1x1x256 ![2] bcast_S256_S1x1x256_2 b)))) g = dense (jetOf H g) (mat W) (vec b) :=
  funext fun n => funext fun k => dense_stage H W b g n k

/-- A round's update, jet by jet. -/
theorem update_jet (H : FVec Ideal S128x200x256 .f32) (E : FVec Ideal S128x200x200 .f32) (W : FVec Ideal S512x256 .f32)
    (b : FVec Ideal S256 .f32) (hE : ∀ g n m, E (ix3 g n m) = expo (logits (jetOf H g)) n m) (g : Fin 128) :
    jetOf (Host.tanh (addf (Host.dotGeneral dot_S128x200x512_S512x256_S128x200x256_2_0_01_1_n_n none
      (concatenate S128x200x512 2 [⟨S128x200x256, H⟩, ⟨S128x200x256,
        Host.dotGeneral dot_S128x200x200_S128x200x256_S128x200x256_2_1_1_2_0_0 none
          (Host.divf E (broadcastInDim S128x200x200 ![0, 1, 2] bcast_S128x200x1_S128x200x200_0_1_2
            (broadcastInDim S128x200x1 ![0, 1] bcast_S128x200_S128x200x1_0_1
              (Host.reduceAdd E (constant S_ .f32 0x00000000#32) reducesTo_S128x200x200_S128x200_d2 h_S_)))) H⟩]
        concatenates_S128x200x256_S128x200x256_S128x200x512_d2) W)
      (broadcastInDim S128x200x256 ![0, 1, 2] bcast_S1x1x256_S128x200x256_0_1_2 (broadcastInDim S1x1x256 ![2] bcast_S256_S1x1x256_2 b)))) g = update (jetOf H g) (mat W) (vec b) :=
  funext fun n => funext fun k => update_stage H E W b hE g n k

/-- The readout over all jets: the linear layer, its bias added to every particle's row, summed over the particles. -/
theorem readout_stage (R : FVec Ideal S128x200x256 .f32) (W : FVec Ideal S256x256 .f32) (b : FVec Ideal S256 .f32)
    (g : Fin 128) (k : Fin 256) :
    Host.reduceAdd (addf (Host.dotGeneral dot_S128x200x256_S256x256_S128x200x256_2_0_01_1_n_n none R W)
      (broadcastInDim S128x200x256 ![0, 1, 2] bcast_S1x1x256_S128x200x256_0_1_2 (broadcastInDim S1x1x256 ![2] bcast_S256_S1x1x256_2 b))) (constant S_ .f32 0x00000000#32) reducesTo_S128x200x256_S128x256_d1 h_S_ (ix2 g k)
      = readout (jetOf R g) (mat W) (vec b) k := by
  have e : ∀ n : Fin 200, addf (Host.dotGeneral dot_S128x200x256_S256x256_S128x200x256_2_0_01_1_n_n none R W)
      (broadcastInDim S128x200x256 ![0, 1, 2] bcast_S1x1x256_S128x200x256_0_1_2 (broadcastInDim S1x1x256 ![2] bcast_S256_S1x1x256_2 b)) (ix3 g n k)
      = (∑ c : Fin 256, R (ix3 g n c) * W (ix2 c k)) + b (ix1 k) := fun n => by
    rw [addf_apply, dense_apply, bias_apply]
  rw [particleSum_apply, Finset.sum_congr rfl fun n _ => e n, sum_add_bias]
  rfl

/-! ## The named stages of the run -/

section Named
variable (V0 : Valuation τ sig (Elt Ideal))

/-- The arguments, as the arrays they are. -/
abbrev jets : FVec Ideal S128x200x8 .f32 := V0 (Proc.devRef .tc main_arg0)
abbrev wEmb : FVec Ideal S8x256 .f32 := V0 (Proc.devRef .tc main_arg1)
abbrev bEmb : FVec Ideal S256 .f32 := V0 (Proc.devRef .tc main_arg2)
abbrev w0 : FVec Ideal S512x256 .f32 := V0 (Proc.devRef .tc main_arg3)
abbrev b0 : FVec Ideal S256 .f32 := V0 (Proc.devRef .tc main_arg4)
abbrev w1 : FVec Ideal S512x256 .f32 := V0 (Proc.devRef .tc main_arg5)
abbrev b1 : FVec Ideal S256 .f32 := V0 (Proc.devRef .tc main_arg6)
abbrev w2 : FVec Ideal S512x256 .f32 := V0 (Proc.devRef .tc main_arg7)
abbrev b2 : FVec Ideal S256 .f32 := V0 (Proc.devRef .tc main_arg8)
abbrev wR1 : FVec Ideal S256x256 .f32 := V0 (Proc.devRef .tc main_arg9)
abbrev bR1 : FVec Ideal S256 .f32 := V0 (Proc.devRef .tc main_arg10)
abbrev wR2 : FVec Ideal S256x256 .f32 := V0 (Proc.devRef .tc main_arg11)
abbrev bR2 : FVec Ideal S256 .f32 := V0 (Proc.devRef .tc main_arg12)
/-- The states after round two and the last round's shifted exponentials, as the arrays they are. -/
abbrev s47 : FVec Ideal S128x200x256 .f32 := res_main_v47 V0
abbrev e57 : FVec Ideal S128x200x200 .f32 := res_main_v57 V0

/-- The embedded states. -/
abbrev h0 (g : Fin 128) : Fin 200 → Fin 256 → EReal := dense (jetOf (jets V0) g) (mat (wEmb V0)) (vec (bEmb V0))
/-- The states after round one. -/
abbrev h1 (g : Fin 128) : Fin 200 → Fin 256 → EReal := update (h0 V0 g) (mat (w0 V0)) (vec (b0 V0))
/-- The states after round two. -/
abbrev h2 (g : Fin 128) : Fin 200 → Fin 256 → EReal := update (h1 V0 g) (mat (w1 V0)) (vec (b1 V0))

theorem states0 (g : Fin 128) : jetOf (res_main_v4 V0) g = h0 V0 g :=
  funext fun n => funext fun k => by unfold res_main_v4; exact embed_stage _ _ _ g n k

theorem logits0 (g : Fin 128) : jetOf (res_main_v8 V0) g = logits (h0 V0 g) :=
  funext fun n => funext fun m => by
    unfold res_main_v8; exact (logits_stage _ g n m).trans (by rw [states0])

theorem expo0 (g : Fin 128) (n m : Fin 200) : res_main_v15 V0 (ix3 g n m) = expo (logits (jetOf (res_main_v4 V0) g)) n m := by
  unfold res_main_v15; exact (expo_stage _ g n m).trans (by rw [logits0, states0])

theorem states1 (g : Fin 128) : jetOf (res_main_v26 V0) g = h1 V0 g :=
  funext fun n => funext fun k => by
    unfold res_main_v26
    exact (update_stage (res_main_v4 V0) (res_main_v15 V0) _ _ (expo0 V0) g n k).trans (by rw [states0])

theorem logits1 (g : Fin 128) : jetOf (res_main_v29 V0) g = logits (h1 V0 g) :=
  funext fun n => funext fun m => by
    unfold res_main_v29; exact (logits_stage _ g n m).trans (by rw [states1])

theorem expo1 (g : Fin 128) (n m : Fin 200) : res_main_v36 V0 (ix3 g n m) = expo (logits (jetOf (res_main_v26 V0) g)) n m := by
  unfold res_main_v36; exact (expo_stage _ g n m).trans (by rw [logits1, states1])

theorem states2 (g : Fin 128) : jetOf (res_main_v47 V0) g = h2 V0 g :=
  funext fun n => funext fun k => by
    unfold res_main_v47
    exact (update_stage (res_main_v26 V0) (res_main_v36 V0) _ _ (expo1 V0) g n k).trans (by rw [states1])

theorem logits2 (g : Fin 128) : jetOf (res_main_v50 V0) g = logits (h2 V0 g) :=
  funext fun n => funext fun m => by
    unfold res_main_v50; exact (logits_stage _ g n m).trans (by rw [states2])

theorem expo2 (g : Fin 128) (n m : Fin 200) : res_main_v57 V0 (ix3 g n m) = expo (logits (jetOf (res_main_v47 V0) g)) n m := by
  unfold res_main_v57; exact (expo_stage _ g n m).trans (by rw [logits2, states2])

/-- The second result at jet `g`: the soft adjacency of the last round. -/
theorem attn_result (g : Fin 128) (n m : Fin 200) :
    (Host.divf (res_main_v57 V0) (broadcastInDim S128x200x200 ![0, 1, 2] bcast_S128x200x1_S128x200x200_0_1_2 (broadcastInDim S128x200x1 ![0, 1] bcast_S128x200_S128x200x1_0_1 (Host.reduceAdd (res_main_v57 V0) (constant S_ .f32 0x00000000#32) reducesTo_S128x200x200_S128x200_d2 h_S_)))) (ix3 g n m)
      = attn (jetOf (jets V0) g) (mat (wEmb V0)) (vec (bEmb V0)) (mat (w0 V0)) (vec (b0 V0)) (mat (w1 V0)) (vec (b1 V0)) n m := by
  rw [normalize_stage,
    show jetOf (res_main_v57 V0) g = expo (logits (jetOf (res_main_v47 V0) g)) from funext fun a => funext fun c => expo2 V0 g a c,
    states2]
  rfl

/-- The first result at jet `g`: the readout of the states after the third round. -/
theorem out_result (g : Fin 128) (k : Fin 256) :
    (Host.reduceAdd (addf (Host.dotGeneral dot_S128x200x256_S256x256_S128x200x256_2_0_01_1_n_n none (Host.tanh (addf (Host.dotGeneral dot_S128x200x256_S256x256_S128x200x256_2_0_01_1_n_n none (Host.tanh (addf (Host.dotGeneral dot_S128x200x512_S512x256_S128x200x256_2_0_01_1_n_n none (concatenate S128x200x512 2 [⟨S128x200x256, (s47 V0)⟩, ⟨S128x200x256, (Host.dotGeneral dot_S128x200x200_S128x200x256_S128x200x256_2_1_1_2_0_0 none (Host.divf (e57 V0) (broadcastInDim S128x200x200 ![0, 1, 2] bcast_S128x200x1_S128x200x200_0_1_2 (broadcastInDim S128x200x1 ![0, 1] bcast_S128x200_S128x200x1_0_1 (Host.reduceAdd (e57 V0) (constant S_ .f32 0x00000000#32) reducesTo_S128x200x200_S128x200_d2 h_S_)))) (s47 V0))⟩] concatenates_S128x200x256_S128x200x256_S128x200x512_d2) (w2 V0)) (broadcastInDim S128x200x256 ![0, 1, 2] bcast_S1x1x256_S128x200x256_0_1_2 (broadcastInDim S1x1x256 ![2] bcast_S256_S1x1x256_2 (b2 V0))))) (wR1 V0)) (broadcastInDim S128x200x256 ![0, 1, 2] bcast_S1x1x256_S128x200x256_0_1_2 (broadcastInDim S1x1x256 ![2] bcast_S256_S1x1x256_2 (bR1 V0))))) (wR2 V0)) (broadcastInDim S128x200x256 ![0, 1, 2] bcast_S1x1x256_S128x200x256_0_1_2 (broadcastInDim S1x1x256 ![2] bcast_S256_S1x1x256_2 (bR2 V0)))) (constant S_ .f32 0x00000000#32) reducesTo_S128x200x256_S128x256_d1 h_S_) (ix2 g k)
      = out (jetOf (jets V0) g) (mat (wEmb V0)) (vec (bEmb V0)) (mat (w0 V0)) (vec (b0 V0)) (mat (w1 V0)) (vec (b1 V0))
          (mat (w2 V0)) (vec (b2 V0)) (mat (wR1 V0)) (vec (bR1 V0)) (mat (wR2 V0)) (vec (bR2 V0)) k := by
  rw [readout_stage, dense_jet, update_jet _ _ _ _ (expo2 V0), states2]
  rfl

end Named

end Cert.RefValue

end
-- ==== Proof.lean ====
/-
  The certificate of the message-passing network kernel against its jnp reference, over the extended reals.

  The kernel runs one grid point per jet: the embedding, three rounds of soft-adjacency message passing and the readout,
  all on one jet's [200, 256] states; it returns the readout [128, 256] and the last round's soft adjacency
  [128, 200, 200]. The reference does the same on the stack of all 128 jets. Both compute, jet by jet, the network of
  Proof/Spec.lean: the kernel's arrays by what one grid point computes (Proof/KernelValue.lean) and how the grid's
  blocks tile the two results (Proof/KernelRun.lean), the reference's by its named stages read at one jet
  (Proof/RefValue.lean) over its run (Proof/RefRun.lean). Where the two texts differ — the kernel multiplies by the two
  halves of each round's 512-by-256 matrix and adds the two products where the reference multiplies the concatenated
  states and messages by the whole matrix; the kernel adds 200 times the readout's bias after the sum over the particles
  where the reference adds the bias to each particle's row before it; the reference takes each row's maximum once more
  against −∞ — the values agree on all extended reals, so the precondition is never opened. The idealization rewrote
  nothing, so `preserves` is trivial, and the frames are the generated ones (the reference's is its run with the
  results dropped).
-/
import proofs.«131165_g85813446574462_cont_9to1c4b_288_5_alg».proof.Defs
import proofs.«131165_g85813446574462_cont_9to1c4b_288_5_alg».proof.Proof.Gen.Kernel
import proofs.«131165_g85813446574462_cont_9to1c4b_288_5_alg».proof.Proof.Gen.Kernel.Skeleton
import proofs.«131165_g85813446574462_cont_9to1c4b_288_5_alg».proof.Proof.Gen.Kernel.Launch
import proofs.«131165_g85813446574462_cont_9to1c4b_288_5_alg».proof.Proof.Gen.Kernel.Points
import proofs.«131165_g85813446574462_cont_9to1c4b_288_5_alg».proof.Proof.Gen.Kernel.Frame
import proofs.«131165_g85813446574462_cont_9to1c4b_288_5_alg».proof.Proof.Gen.KernelIdeal
import proofs.«131165_g85813446574462_cont_9to1c4b_288_5_alg».proof.Proof.Gen.KernelIdeal.Skeleton
import proofs.«131165_g85813446574462_cont_9to1c4b_288_5_alg».proof.Proof.Gen.KernelIdeal.Launch
import proofs.«131165_g85813446574462_cont_9to1c4b_288_5_alg».proof.Proof.Gen.KernelIdeal.Points
import proofs.«131165_g85813446574462_cont_9to1c4b_288_5_alg».proof.Proof.Gen.KernelIdeal.Frame
import proofs.«131165_g85813446574462_cont_9to1c4b_288_5_alg».proof.Proof.Gen.ReferenceIdeal
import proofs.«131165_g85813446574462_cont_9to1c4b_288_5_alg».proof.Proof.Gen.Pre_finite_inputs
import proofs.«131165_g85813446574462_cont_9to1c4b_288_5_alg».proof.Proof.KernelRun
import proofs.«131165_g85813446574462_cont_9to1c4b_288_5_alg».proof.Proof.KernelValue
import proofs.«131165_g85813446574462_cont_9to1c4b_288_5_alg».proof.Proof.RefRun
import proofs.«131165_g85813446574462_cont_9to1c4b_288_5_alg».proof.Proof.RefValue
import Idealize.ShloMosaic.Adequacy
import Idealize.ShloMosaic.Init

noncomputable section

namespace Cert.Proof

open Idealize.ShloMosaic Idealize.ShloMosaic.ValueIdx Idealize.ShloMosaic.TcCoe Idealize.SL.Sem Idealize.ShloMosaic.StableHlo

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the two results dropped. -/
theorem frame_referenceIdeal : Cert.frame_ReferenceIdeal := fun m ρ _ =>
  (θ_run Cert.ReferenceIdeal.defs _ _).mono (fun _ h c => (h c).2.2) (Cert.ReferenceIdeal.RefRun.run (F := Ideal) m ρ)

/-- The reference's first result is the kernel's: at jet `g` both are the network's readout of that jet. -/
theorem out_agree (V0 : Valuation Cert.ReferenceIdeal.τ Cert.ReferenceIdeal.sig (Elt Ideal)) (T : FVec Ideal Cert.ReferenceIdeal.S128x256 .f32)
    (hT : ∀ g k, T (ix2 g k) = Cert.Spec.out (Cert.Spec.jetOf (Cert.RefValue.jets V0) g) (Cert.Spec.mat (Cert.RefValue.wEmb V0))
      (Cert.Spec.vec (Cert.RefValue.bEmb V0)) (Cert.Spec.mat (Cert.RefValue.w0 V0)) (Cert.Spec.vec (Cert.RefValue.b0 V0))
      (Cert.Spec.mat (Cert.RefValue.w1 V0)) (Cert.Spec.vec (Cert.RefValue.b1 V0)) (Cert.Spec.mat (Cert.RefValue.w2 V0))
      (Cert.Spec.vec (Cert.RefValue.b2 V0)) (Cert.Spec.mat (Cert.RefValue.wR1 V0)) (Cert.Spec.vec (Cert.RefValue.bR1 V0))
      (Cert.Spec.mat (Cert.RefValue.wR2 V0)) (Cert.Spec.vec (Cert.RefValue.bR2 V0)) k) :
    T = Cert.KernelIdeal.Member.outArr (Cert.RefValue.jets V0) (Cert.RefValue.wEmb V0) (Cert.RefValue.bEmb V0) (Cert.RefValue.w0 V0)
      (Cert.RefValue.b0 V0) (Cert.RefValue.w1 V0) (Cert.RefValue.b1 V0) (Cert.RefValue.w2 V0) (Cert.RefValue.b2 V0)
      (Cert.RefValue.wR1 V0) (Cert.RefValue.bR1 V0) (Cert.RefValue.wR2 V0) (Cert.RefValue.bR2 V0) := by
  funext i
  obtain ⟨g, k, rfl⟩ : ∃ (g : Fin 128) (k : Fin 256), i = ix2 g k := ⟨i 0, i 1, eq_ix2 i⟩
  rw [hT g k, Cert.KernelValue.outArr_apply]

/-- The reference's second result is the kernel's: at jet `g` both are the network's soft adjacency of that jet. -/
theorem attn_agree (V0 : Valuation Cert.ReferenceIdeal.τ Cert.ReferenceIdeal.sig (Elt Ideal)) (T : FVec Ideal Cert.ReferenceIdeal.S128x200x200 .f32)
    (hT : ∀ g n m, T (ix3 g n m) = Cert.Spec.attn (Cert.Spec.jetOf (Cert.RefValue.jets V0) g) (Cert.Spec.mat (Cert.RefValue.wEmb V0))
      (Cert.Spec.vec (Cert.RefValue.bEmb V0)) (Cert.Spec.mat (Cert.RefValue.w0 V0)) (Cert.Spec.vec (Cert.RefValue.b0 V0))
      (Cert.Spec.mat (Cert.RefValue.w1 V0)) (Cert.Spec.vec (Cert.RefValue.b1 V0)) n m) :
    T = Cert.KernelIdeal.Member.attnArr (Cert.RefValue.jets V0) (Cert.RefValue.wEmb V0) (Cert.RefValue.bEmb V0) (Cert.RefValue.w0 V0)
      (Cert.RefValue.b0 V0) (Cert.RefValue.w1 V0) (Cert.RefValue.b1 V0) := by
  funext i
  obtain ⟨g, n, m, rfl⟩ : ∃ (g : Fin 128) (n m : Fin 200), i = ix3 g n m := ⟨i 0, i 1, i 2, eq_ix3 i⟩
  rw [hT g n m, Cert.KernelValue.attnArr_apply]

set_option maxHeartbeats 1000000 in
/-- From memories agreeing on the arguments both programs end with the kernel's two arrays of those arguments. -/
theorem algebraic : Cert.algebraic_KernelIdeal_ReferenceIdeal := by
  intro m ρ m' ρ' _ hagree
  refine ⟨_, _, Cert.KernelIdeal.RunValue.run m ρ, ?_⟩
  refine (θ_run Cert.ReferenceIdeal.defs _ _).mono (fun r h c => ?_) (Cert.ReferenceIdeal.RefRun.run (F := Ideal) m' ρ')
  obtain ⟨a0, a1, a2, a3, a4, a5, a6, a7, a8, a9, a10, a11, a12⟩ := hagree c
  have e0 : Cert.RefValue.jets (launchContents m' c) = m ((c.tc : Thread Cert.KernelIdeal.nD Cert.KernelIdeal.τ).loc Cert.KernelIdeal.main_arg0) := a0
  have e1 : Cert.RefValue.wEmb (launchContents m' c) = m ((c.tc : Thread Cert.KernelIdeal.nD Cert.KernelIdeal.τ).loc Cert.KernelIdeal.main_arg1) := a1
  have e2 : Cert.RefValue.bEmb (launchContents m' c) = m ((c.tc : Thread Cert.KernelIdeal.nD Cert.KernelIdeal.τ).loc Cert.KernelIdeal.main_arg2) := a2
  have e3 : Cert.RefValue.w0 (launchContents m' c) = m ((c.tc : Thread Cert.KernelIdeal.nD Cert.KernelIdeal.τ).loc Cert.KernelIdeal.main_arg3) := a3
  have e4 : Cert.RefValue.b0 (launchContents m' c) = m ((c.tc : Thread Cert.KernelIdeal.nD Cert.KernelIdeal.τ).loc Cert.KernelIdeal.main_arg4) := a4
  have e5 : Cert.RefValue.w1 (launchContents m' c) = m ((c.tc : Thread Cert.KernelIdeal.nD Cert.KernelIdeal.τ).loc Cert.KernelIdeal.main_arg5) := a5
  have e6 : Cert.RefValue.b1 (launchContents m' c) = m ((c.tc : Thread Cert.KernelIdeal.nD Cert.KernelIdeal.τ).loc Cert.KernelIdeal.main_arg6) := a6
  have e7 : Cert.RefValue.w2 (launchContents m' c) = m ((c.tc : Thread Cert.KernelIdeal.nD Cert.KernelIdeal.τ).loc Cert.KernelIdeal.main_arg7) := a7
  have e8 : Cert.RefValue.b2 (launchContents m' c) = m ((c.tc : Thread Cert.KernelIdeal.nD Cert.KernelIdeal.τ).loc Cert.KernelIdeal.main_arg8) := a8
  have e9 : Cert.RefValue.wR1 (launchContents m' c) = m ((c.tc : Thread Cert.KernelIdeal.nD Cert.KernelIdeal.τ).loc Cert.KernelIdeal.main_arg9) := a9
  have e10 : Cert.RefValue.bR1 (launchContents m' c) = m ((c.tc : Thread Cert.KernelIdeal.nD Cert.KernelIdeal.τ).loc Cert.KernelIdeal.main_arg10) := a10
  have e11 : Cert.RefValue.wR2 (launchContents m' c) = m ((c.tc : Thread Cert.KernelIdeal.nD Cert.KernelIdeal.τ).loc Cert.KernelIdeal.main_arg11) := a11
  have e12 : Cert.RefValue.bR2 (launchContents m' c) = m ((c.tc : Thread Cert.KernelIdeal.nD Cert.KernelIdeal.τ).loc Cert.KernelIdeal.main_arg12) := a12
  refine ⟨(h c).1.trans ?_, (h c).2.1.trans ?_, (h c).2.2⟩
  · exact (out_agree (launchContents m' c) _ (Cert.RefValue.out_result (launchContents m' c))).trans
      (by rw [e0, e1, e2, e3, e4, e5, e6, e7, e8, e9, e10, e11, e12])
  · exact (attn_agree (launchContents m' c) _ (Cert.RefValue.attn_result (launchContents m' c))).trans
      (by rw [e0, e1, e2, e3, e4, e5, e6])

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
